-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S32x512x32x32 .f32) (main_arg1 : FVec F S512x1024 .f32) (main_arg2 : FVec F S512x1024 .f32) (main_arg3 : FVec F S512 .f32) (main_arg4 : FVec F S1024x512 .f32) (main_arg5 : FVec F S1024 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x512x32x32 : Shape := ⟨4, ![32, 512, 32, 32]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S16384x1024 : Shape := ⟨2, ![16384, 1024]⟩
abbrev S512x512 : Shape := ⟨2, ![512, 512]⟩
abbrev S1x512 : Shape := ⟨2, ![1, 512]⟩
abbrev S_ : Shape := ⟨0, ![]⟩
abbrev S1x1024 : Shape := ⟨2, ![1, 1024]⟩
abbrev S512x1 : Shape := ⟨2, ![512, 1]⟩
abbrev S32x512x1024 : Shape := ⟨3, ![32, 512, 1024]⟩
abbrev S32x512x512 : Shape := ⟨3, ![32, 512, 512]⟩
abbrev S1x512x1024 : Shape := ⟨3, ![1, 512, 1024]⟩
abbrev S1x512x512 : Shape := ⟨3, ![1, 512, 512]⟩
abbrev S16384x512 : Shape := ⟨2, ![16384, 512]⟩

abbrev nBuf : Space → Nat
  | .hbm => 41
  | .vmem => 9
  | .smem => 0
  | _ => 0

abbrev bufTy : (tb : Table) → Fin (tcTables nBuf tb) → BufTy
  | .hbm, ⟨0, _⟩ => ⟨S32x512x32x32, .f32⟩
  | .hbm, ⟨1, _⟩ => ⟨S512x1024, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S16384x1024, .f32⟩
  | .hbm, ⟨7, _⟩ => ⟨S1024x512, .f32⟩
  | .hbm, ⟨8, _⟩ => ⟨S512x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S512x1, .f32⟩
  | .hbm, ⟨28, _⟩ => ⟨S_, .f32⟩
  | .hbm, ⟨29, _⟩ => ⟨S512x1, .f32⟩
  | .hbm, ⟨30, _⟩ => ⟨S512x1, .f32⟩
  | .hbm, ⟨31, _⟩ => ⟨S512x1024, .f32⟩
  | .hbm, ⟨32, _⟩ => ⟨S512x1024, .f32⟩
  | .hbm, ⟨33, _⟩ => ⟨S512x1024, .bf16⟩
  | .hbm, ⟨34, _⟩ => ⟨S32x512x1024, .f32⟩
  | .hbm, ⟨35, _⟩ => ⟨S32x512x1024, .f32⟩
  | .hbm, ⟨36, _⟩ => ⟨S32x512x1024, .f32⟩
  | .hbm, ⟨37, _⟩ => ⟨S32x512x512, .f32⟩
  | .hbm, ⟨38, _⟩ => ⟨S32x512x32x32, .f32⟩
  | .hbm, ⟨39, _⟩ => ⟨S32x512x32x32, .f32⟩
  | .hbm, ⟨40, _⟩ => ⟨S16384x512, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x512, .f32⟩
  | .local _ .vmem, ⟨8, _⟩ => ⟨S1x512x512, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x512x32x32_S16384x1024 : S32x512x32x32.ShapeCasts S16384x1024
  transposes_S512x1024_S1024x512_1_0 : S512x1024.Transposes [1, 0] S1024x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  reducesTo_S512x1024_S512_d1 : S512x1024.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x1024_0_1 : S512x1.BroadcastsInDim S512x1024 (![0, 1] : Fin 2 → Fin S512x1024.rank)
  bitsLt_bf16_f32 : FTy.bits .bf16 < FTy.bits .f32
  shapeCasts_S32x512x32x32_S32x512x1024 : S32x512x32x32.ShapeCasts S32x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x512_S512 : S512x512.Reduces [1] S512
  broadcasts_S512x1_S512x512 : S512x1.Broadcasts S512x512
  shapeCasts_S512x1_S512x1 : S512x1.ShapeCasts S512x1
  shapeCasts_S512x1024_S1x512x1024 : S512x1024.ShapeCasts S1x512x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S32x512x1024_S32x512x32x32 : S32x512x1024.ShapeCasts S32x512x32x32
  shapeCasts_S32x512x512_S16384x512 : S32x512x512.ShapeCasts S16384x512
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S512x1024_S512x1024_S512x512_1_1_0_0_n_n_wf : DotDims.WF S512x1024 S512x1024 S512x512 [1] [1] [0] [0] [] []
  dot_S512x512_S512x1_S512x1_0_0_1_1_n_n_wf : DotDims.WF S512x512 S512x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x512x1024.size a
  hwx0_2 : ∀ i : grid0.Coords, EltTy.bits .f32 = 32 ∨ (Rect.block (s := S32x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x512x512.size a
  hwx0_4 : ∀ i : grid0.Coords, EltTy.bits .f32 = 32 ∨ (Rect.block (s := S32x512x512) S1x512x512.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1_S512x1_0_0_1_1_n_n : DotDims S512x512 S512x1 S512x1 where
  lhsContracting := [0]
  rhsContracting := [0]
  lhsNonContracting := [1]
  rhsNonContracting := [1]
  lhsBatch := []
  rhsBatch := []
  wf := dot_S512x512_S512x1_S512x1_0_0_1_1_n_n_wf

abbrev win0_0 : Pipeline.Window sig grid0 :=
  Pipeline.Window.ofSpec (Memref.whole main_v19) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_1) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_2) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S512x512 : Shape := ⟨2, ![512, 512]⟩
abbrev S1x512 : Shape := ⟨2, ![1, 512]⟩
abbrev S1x1024 : Shape := ⟨2, ![1, 1024]⟩
abbrev S512x1 : Shape := ⟨2, ![512, 1]⟩
abbrev S16384x512 : Shape := ⟨2, ![16384, 512]⟩
abbrev S32x512x512 : Shape := ⟨3, ![32, 512, 512]⟩
abbrev S32x512 : Shape := ⟨2, ![32, 512]⟩
abbrev S32x512x1x1 : Shape := ⟨4, ![32, 512, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S512x1024, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x1024, .f32⟩
  | .hbm, ⟨26, _⟩ => ⟨S512x1024, .f32⟩
  | .hbm, ⟨27, _⟩ => ⟨S1x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1024, .f32⟩
  | .hbm, ⟨42, _⟩ => ⟨S512x1024, .f32⟩
  | .hbm, ⟨43, _⟩ => ⟨S1024x512, .f32⟩
  | .hbm, ⟨44, _⟩ => ⟨S16384x512, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384x1, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x512, .f32⟩
  | .hbm, ⟨72, _⟩ => ⟨S16384x512, .f32⟩
  | .hbm, ⟨73, _⟩ => ⟨S16384x1024, .f32⟩
  | .hbm, ⟨74, _⟩ => ⟨S32x512x32x32, .f32⟩
  | .hbm, ⟨75, _⟩ => ⟨S32x512x512, .f32⟩
  | .hbm, ⟨76, _⟩ => ⟨S_, .f32⟩
  | .hbm, ⟨77, _⟩ => ⟨S32x512, .f32⟩
  | .hbm, ⟨78, _⟩ => ⟨S_, .f32⟩
  | .hbm, ⟨79, _⟩ => ⟨S32x512, .f32⟩
  | .hbm, ⟨80, _⟩ => ⟨S32x512, .f32⟩
  | .hbm, ⟨81, _⟩ => ⟨S32x512x1x1, .f32⟩
  | .hbm, ⟨82, _⟩ => ⟨S32x512x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_call3_v0 : Ref sig .tc := ⟨.hbm, 33, rfl⟩
abbrev main_call3_cst : Ref sig .tc := ⟨.hbm, 34, rfl⟩
abbrev main_call3_v1 : Ref sig .tc := ⟨.hbm, 35, rfl⟩
abbrev main_call3_v2 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_call4_cst : Ref sig .tc := ⟨.hbm, 62, rfl⟩
abbrev main_call4_v0 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  shapeCasts_S32x512x32x32_S16384x1024 : S32x512x32x32.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  transposes_S512x1024_S1024x512_1_0 : S512x1024.Transposes [1, 0] S1024x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  reducesTo_S512x1024_S512_d1 : S512x1024.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x1024_0_1 : S512x1.BroadcastsInDim S512x1024 (![0, 1] : Fin 2 → Fin S512x1024.rank)
  reducesTo_S16384x512_S16384_d1 : S16384x512.ReducesTo [1] S16384
  bcast_S_S16384 : S_.BroadcastsInDim S16384 (![] : Fin 0 → Fin S16384.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  shapeCasts_S16384x1024_S32x512x32x32 : S16384x1024.ShapeCasts S32x512x32x32
  shapeCasts_S16384x512_S32x512x512 : S16384x512.ShapeCasts S32x512x512
  reducesTo_S32x512x512_S32x512_d1 : S32x512x512.ReducesTo [1] S32x512
  bcast_S_S32x512 : S_.BroadcastsInDim S32x512 (![] : Fin 0 → Fin S32x512.rank)
  bcast_S32x512_S32x512x1x1_0_1 : S32x512.BroadcastsInDim S32x512x1x1 (![0, 1] : Fin 2 → Fin S32x512x1x1.rank)
  bcast_S32x512x1x1_S32x512x32x32_0_1_2_3 : S32x512x1x1.BroadcastsInDim S32x512x32x32 (![0, 1, 2, 3] : Fin 4 → Fin S32x512x32x32.rank)
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S16384x1024_S1024x512_S16384x512_1_0_0_1_n_n_wf : DotDims.WF S16384x1024 S1024x512 S16384x512 [1] [0] [0] [1] [] []
  dot_S16384x512_S512x1024_S16384x1024_1_0_0_1_n_n_wf : DotDims.WF S16384x512 S512x1024 S16384x1024 [1] [0] [0] [1] [] []

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf

class Facts : Prop extends Facts₀ where

variable [Facts]
-- ==== Proof.Spec.lean ====
/-
  The addressing step as plain mathematics on the extended reals, one input row at a time.

  A row `x` of 1024 entries is divided by its Euclidean norm, clamped below by `ε`; its inner products with the 512
  rows of the normalised memory bank `M` are turned into a softmax (each shifted by the row's largest, exponentiated,
  divided by the sum); every weight is lowered by the shrink threshold and cut at zero; the result is divided by its
  sum, clamped below by `ε`. The read-out is the weights' combination of the bank's rows. The channel average of the
  weights over 512 rows is written in two ways: the sum of the weights each multiplied by `1/512`, and the sum divided
  by `512`; on the extended reals these agree, because a non-negative real factor distributes over any sum.
-/
import Idealize.ShloMosaic.PureOps.Ideal.Laws
import Idealize.ShloMosaic.Lib.ValueIdx

noncomputable section

open scoped BigOperators

namespace Cert.Addressing

open Idealize.ShloMosaic

/-- The clamp `ε`, the binary value of the word both programs carry. -/
def eps : EReal := Ideal.ofBits .f32 0x2B8CBCCC#32
/-- The shrink threshold, the binary value of the word both programs carry. -/
def shrink : EReal := Ideal.ofBits .f32 0x3B23D70A#32

variable (M : Fin 512 → Fin 1024 → EReal)

/-- The Euclidean norm of a row, clamped below by `ε`. -/
def clampedNorm (x : Fin 1024 → EReal) : EReal := max (Ideal.sqrt (∑ k : Fin 1024, x k * x k)) eps
/-- The row divided by its clamped norm. -/
def unitRow (x : Fin 1024 → EReal) (k : Fin 1024) : EReal := Ideal.div (x k) (clampedNorm x)
/-- The inner product of the normalised row with bank row `j`. -/
def sim (x : Fin 1024 → EReal) (j : Fin 512) : EReal := ∑ k : Fin 1024, unitRow x k * M j k
/-- The largest inner product of the row. -/
def simMax (x : Fin 1024 → EReal) : EReal := (Finset.univ : Finset (Fin 512)).fold max ⊥ (sim M x)
/-- The shifted exponential. -/
def expo (x : Fin 1024 → EReal) (j : Fin 512) : EReal := Ideal.exp (sim M x j - simMax M x)
/-- The softmax weight. -/
def soft (x : Fin 1024 → EReal) (j : Fin 512) : EReal := Ideal.div (expo M x j) (∑ j' : Fin 512, expo M x j')
/-- The weight lowered by the threshold and cut at zero. -/
def shrunk (x : Fin 1024 → EReal) (j : Fin 512) : EReal := max (soft M x j - shrink) 0
/-- The renormalised weight: divided by the sum of the cut weights, clamped below by `ε`. -/
def att (x : Fin 1024 → EReal) (j : Fin 512) : EReal :=
  Ideal.div (shrunk M x j) (max (∑ j' : Fin 512, shrunk M x j') eps)
/-- The read-out: the weights' combination of the bank's rows. -/
def readout (x : Fin 1024 → EReal) (k : Fin 1024) : EReal := ∑ j : Fin 512, att M x j * M j k
/-- The channel average of the weights over 512 rows, each weight multiplied by the word whose value is `1/512`. -/
def chanAvg (xs : Fin 512 → Fin 1024 → EReal) (j : Fin 512) : EReal :=
  ∑ c : Fin 512, att M (xs c) j * Ideal.ofBits .f32 0x3B000000#32

/-- The word `0x3B000000` is the real `1/512`. -/
theorem ofBits_inv512 : Ideal.ofBits .f32 0x3B000000#32 = ((1 / 512 : ℝ) : EReal) := by
  simp [Ideal.ofBits, Ideal.ieee, -EReal.coe_mul]; norm_num

/-- The word `0x44000000` is the real `512`. -/
theorem ofBits_512 : Ideal.ofBits .f32 0x44000000#32 = ((512 : ℝ) : EReal) := by
  simp [Ideal.ofBits, Ideal.ieee, -EReal.coe_mul]; norm_num

/-- The word `0xFF800000` is `-∞`. -/
theorem ofBits_negInf : Ideal.ofBits .f32 0xFF800000#32 = (⊥ : EReal) := by
  simp [Ideal.ofBits, Ideal.ieee]

/-- A non-negative real factor distributes over a finite sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Dividing the sum of the weights by `512` is summing the weights each multiplied by `1/512`. -/
theorem div512_eq_chanAvg (xs : Fin 512 → Fin 1024 → EReal) (j : Fin 512) :
    Ideal.div (∑ c : Fin 512, att M (xs c) j) (Ideal.ofBits .f32 0x44000000#32) = chanAvg M xs j := by
  unfold chanAvg
  rw [ofBits_512, ofBits_inv512, Ideal.div_coe (by norm_num : (512 : ℝ) ≠ 0), sum_mul_coe _ _ (by norm_num)]

/-! ## The results as whole arrays

The input is an array `X` of shape [32, 512, 32, 32]; row `(n, c)` of the flattened input is its 1024 entries
`X[n, c, k / 32, k % 32]`. The bank is a [512, 1024] array `B`. -/

open Idealize.ShloMosaic.ValueIdx

/-- Row `(n, c)` of the input, its two trailing axes flattened. -/
def rowOf (X : (⟨4, ![32, 512, 32, 32]⟩ : Shape).Idx → EReal) (n : Fin 32) (c : Fin 512) (k : Fin 1024) : EReal :=
  X (ix4 n c ⟨k.val / 32, by have := k.isLt; omega⟩ ⟨k.val % 32, Nat.mod_lt _ (by decide)⟩)
/-- The bank's rows. -/
def bankOf (B : (⟨2, ![512, 1024]⟩ : Shape).Idx → EReal) (j : Fin 512) (k : Fin 1024) : EReal := B (ix2 j k)

/-- The read-out, laid out as [32, 512, 32, 32]: entry `(n, c, h, w)` is the read-out of row `(n, c)` at `32 h + w`. -/
def outReadout (B : (⟨2, ![512, 1024]⟩ : Shape).Idx → EReal) (X : (⟨4, ![32, 512, 32, 32]⟩ : Shape).Idx → EReal) :
    (⟨4, ![32, 512, 32, 32]⟩ : Shape).Idx → EReal := fun i =>
  readout (bankOf B) (rowOf X (i 0) (i 1)) ⟨(i 2).val * 32 + (i 3).val, by have h2 : (i 2).val < 32 := (i 2).isLt; have h3 : (i 3).val < 32 := (i 3).isLt; omega⟩
/-- The channel average, laid out as [32, 512, 32, 32]: entry `(n, j, h, w)` is the average over the channels of
    batch `n` of weight `j`, the same at every `(h, w)`. -/
def outAvg (B : (⟨2, ![512, 1024]⟩ : Shape).Idx → EReal) (X : (⟨4, ![32, 512, 32, 32]⟩ : Shape).Idx → EReal) :
    (⟨4, ![32, 512, 32, 32]⟩ : Shape).Idx → EReal := fun i =>
  chanAvg (bankOf B) (rowOf X (i 0)) (i 1)
/-- The flattened input, [16384, 1024]: row `r` is row `(r / 512, r % 512)`. -/
def outFlat (X : (⟨4, ![32, 512, 32, 32]⟩ : Shape).Idx → EReal) : (⟨2, ![16384, 1024]⟩ : Shape).Idx → EReal := fun i =>
  rowOf X ⟨(i 0).val / 512, by have h0 : (i 0).val < 16384 := (i 0).isLt; omega⟩ ⟨(i 0).val % 512, Nat.mod_lt _ (by decide)⟩ (i 1)
/-- The weights, [16384, 512]: row `r` holds the weights of input row `(r / 512, r % 512)`. -/
def outAtt (B : (⟨2, ![512, 1024]⟩ : Shape).Idx → EReal) (X : (⟨4, ![32, 512, 32, 32]⟩ : Shape).Idx → EReal) :
    (⟨2, ![16384, 512]⟩ : Shape).Idx → EReal := fun i =>
  att (bankOf B) (rowOf X ⟨(i 0).val / 512, by have h0 : (i 0).val < 16384 := (i 0).isLt; omega⟩ ⟨(i 0).val % 512, Nat.mod_lt _ (by decide)⟩) (i 1)

end Cert.Addressing

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.LibRank2.lean ====
/-
  General facts about vector operations on small-rank arrays, read at explicit coordinates, at the ideal instance
  (floats are extended reals) where arithmetic is involved.

  * A plain matrix product into a zero accumulator at `(r, c)` is `∑ k, x[r, k] · w[k, c]`.
  * Casts that add or drop unit axes read the same entry: `[a] → [a, 1]`, `[1, 1, a] → [a]`, `[a] → [1, 1, a]`.
  * A sum or a maximum over the second axis of a rank-2 array, read at row `i`, runs over that row; a sum over the
    first axis, read at column `k`, runs over that column.
  * Two arrays joined along the second axis: a column below the first extent comes from the first, the others from
    the second, the first extent less. The same for rank-3 arrays joined along the third axis.
  * The exponential acts entry by entry.
-/
import proofs.«138025_j73375221285179_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lib2

open Idealize.ShloMosaic Idealize.ShloMosaic.ValueIdx

variable {α : Type}

/-- A plain matrix product into a zero accumulator, at explicit coordinates. -/
theorem plain_matmul_ix2 {φ₁ φ₂ : FTy} (M K N : Nat) (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant ⟨2, ![M, N]⟩ .f32 0x00000000#32) (ix2 r c)
      = ∑ k : Fin K, x (ix2 r k) * w (ix2 k c) :=
  Cert.Gnn.plain_matmul_apply M K N prec x w (ix2 r c)

/-- A vector cast to a column reads, at `(i, 0)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to a vector reads, at `j`, the operand at `(0, 0, j)`. -/
theorem shapeCast_11a_a_apply {a : ℕ} (x : (⟨3, ![1, 1, a]⟩ : Shape).Idx → α) (h : (⟨3, ![1, 1, a]⟩ : Shape).ShapeCasts ⟨1, ![a]⟩)
    (j : Fin a) : shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    simp)

/-- A vector cast to `[1, 1, a]` reads, at `(u, v, k)`, the vector's entry `k`. -/
theorem shapeCast_a_11a_apply {a : ℕ} (x : (⟨1, ![a]⟩ : Shape).Idx → α) (h : (⟨1, ![a]⟩ : Shape).ShapeCasts ⟨3, ![1, 1, a]⟩)
    (u v : Fin 1) (k : Fin a) : shapeCast ⟨3, ![1, 1, a]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * a + k.val
    rw [hu, hv]; simp)

/-- The index a reduction over the second axis inserts at row `i`, coordinate `k`. -/
theorem lift_axis1 {A B : ℕ} (h : Shape.Reduces ⟨2, ![A, B]⟩ [1] ⟨1, ![A]⟩) (i : Fin A) (k : Fin B) :
    h.lift (ix1 i) k = ix2 i k :=
  funext fun d => Fin.ext (by match d with | ⟨0, _⟩ => rfl | ⟨1, _⟩ => rfl)

/-- The index a reduction over the first axis inserts at column `k`, coordinate `i`. -/
theorem lift_axis0 {A B : ℕ} (h : Shape.Reduces ⟨2, ![A, B]⟩ [0] ⟨1, ![B]⟩) (k : Fin B) (i : Fin A) :
    h.lift (ix1 k) i = ix2 i k :=
  funext fun d => Fin.ext (by match d with | ⟨0, _⟩ => rfl | ⟨1, _⟩ => rfl)

/-- A sum over the second axis, at row `i`. -/
theorem multiReduction_add_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (i : Fin A) :
    multiReduction .add [1] ⟨1, ![A]⟩ src acc h hφ hacc (ix1 i) = ∑ k : Fin B, src (ix2 i k) :=
  (Ideal.multiReduction_add_single src acc h hφ hacc (ix1 i)).trans
    (Finset.sum_congr rfl fun k _ => congrArg src (lift_axis1 h i k))

/-- A sum over the first axis, at column `k`. -/
theorem multiReduction_add_axis0 {φ : FTy} {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (k : Fin B) :
    multiReduction .add [0] ⟨1, ![B]⟩ src acc h hφ hacc (ix1 k) = ∑ i : Fin A, src (ix2 i k) :=
  (Ideal.multiReduction_add_single src acc h hφ hacc (ix1 k)).trans
    (Finset.sum_congr rfl fun i _ => congrArg src (lift_axis0 h k i))

/-- A maximum over the second axis, at row `i`: the fold of `max` from the accumulator's value over the row. -/
theorem multiReduction_max_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (i : Fin A) :
    multiReduction .maximumf [1] ⟨1, ![A]⟩ src acc h hφ hacc (ix1 i)
      = (Finset.univ : Finset (Fin B)).fold max (Ideal.ofBits φ acc) (fun k => src (ix2 i k)) :=
  (Ideal.multiReduction_maximumf_single src acc h hφ hacc (ix1 i)).trans
    (congrArg (fun g => (Finset.univ : Finset (Fin B)).fold max (Ideal.ofBits φ acc) g)
      (funext fun k => congrArg src (lift_axis1 h i k)))

/-- Two rank-2 arrays joined along the second axis, read at `(i, q)`. -/
theorem concatenate_cols_apply {a n1 n2 n : ℕ} (x₁ : (⟨2, ![a, n1]⟩ : Shape).Idx → α) (x₂ : (⟨2, ![a, n2]⟩ : Shape).Idx → α)
    (h : Shape.Concatenates [⟨2, ![a, n1]⟩, ⟨2, ![a, n2]⟩] ⟨2, ![a, n]⟩ 1) (hn : n = n1 + n2) (i : Fin a) (q : Fin n) :
    concatenate ⟨2, ![a, n]⟩ 1 [⟨⟨2, ![a, n1]⟩, x₁⟩, ⟨⟨2, ![a, n2]⟩, x₂⟩] h (ix2 i q)
      = if hq : q.val < n1 then x₁ (ix2 i ⟨q.val, hq⟩) else x₂ (ix2 i ⟨q.val - n1, by have := q.isLt; omega⟩) := by
  split
  · next hq =>
    exact concatenate_pair_apply_left 1 x₁ x₂ h (ix2 i q) rfl (ix2 i ⟨q.val, hq⟩)
      (fun b => match b with | ⟨0, _⟩ => rfl | ⟨1, _⟩ => rfl)
  · next hq =>
    exact concatenate_pair_apply_right 1 x₁ x₂ h (ix2 i q) rfl rfl (ix2 i ⟨q.val - n1, by have := q.isLt; omega⟩)
      (fun b hb => match b, hb with | ⟨0, _⟩, _ => rfl | ⟨1, _⟩, hb => absurd rfl hb)
      (by show (q.val - n1) + n1 = q.val; omega)

/-- Two rank-3 arrays joined along the third axis, read at `(b, i, q)`. -/
theorem concatenate_axis2_apply {m a n1 n2 n : ℕ} (x₁ : (⟨3, ![m, a, n1]⟩ : Shape).Idx → α) (x₂ : (⟨3, ![m, a, n2]⟩ : Shape).Idx → α)
    (h : Shape.Concatenates [⟨3, ![m, a, n1]⟩, ⟨3, ![m, a, n2]⟩] ⟨3, ![m, a, n]⟩ 2) (hn : n = n1 + n2) (b : Fin m) (i : Fin a) (q : Fin n) :
    concatenate ⟨3, ![m, a, n]⟩ 2 [⟨⟨3, ![m, a, n1]⟩, x₁⟩, ⟨⟨3, ![m, a, n2]⟩, x₂⟩] h (ix3 b i q)
      = if hq : q.val < n1 then x₁ (ix3 b i ⟨q.val, hq⟩) else x₂ (ix3 b i ⟨q.val - n1, by have := q.isLt; omega⟩) := by
  split
  · next hq =>
    exact concatenate_pair_apply_left 2 x₁ x₂ h (ix3 b i q) rfl (ix3 b i ⟨q.val, hq⟩)
      (fun d => match d with | ⟨0, _⟩ => rfl | ⟨1, _⟩ => rfl | ⟨2, _⟩ => rfl)
  · next hq =>
    exact concatenate_pair_apply_right 2 x₁ x₂ h (ix3 b i q) rfl rfl (ix3 b i ⟨q.val - n1, by have := q.isLt; omega⟩)
      (fun d hd => match d, hd with | ⟨0, _⟩, _ => rfl | ⟨1, _⟩, _ => rfl | ⟨2, _⟩, hd => absurd rfl hd)
      (by show (q.val - n1) + n1 = q.val; omega)

/-- The exponential acts entry by entry. -/
theorem exp_apply {s : Shape} {φ : FTy} (a : FVec Ideal s φ) (i : s.Idx) : exp a i = Ideal.exp (a i) := rfl

end Cert.Lib2

end
-- ==== Proof.LibTransposedMatmul.lean ====
/-
  A matrix product that contracts BOTH operands on their last axis — an `M × K` array against an `N × K` array,
  the result `M × N` — read at one entry, at the ideal instance (floats are extended reals).

  Into a zero accumulator the entry `(r, c)` is the sum over `k` of `x[r, k] · w[c, k]`: the product of `x` with the
  transpose of `w`, without any transpose being formed. The dimension numbers contract axis 1 of each operand, the
  result's row is the left operand's row and the result's column is the right operand's ROW; re-indexing the
  one-axis contraction by its single coordinate gives the textbook sum.
-/
import Idealize.ShloMosaic.PureOps.Ideal.Laws
import Idealize.ShloMosaic.Lib.ValueIdx
import Idealize.ShloMosaic.Lib.Pipeline.Value

noncomputable section

open scoped BigOperators

namespace Cert.MatT

open Idealize.ShloMosaic Idealize.ShloMosaic.ValueIdx

/-- The left operand's row coordinate is the result's row coordinate. -/
theorem transposedRhs_lhs_row (M K N : Nat) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's ROW coordinate is the result's column coordinate. -/
theorem transposedRhs_rhs_row (M K N : Nat) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- A product contracting both operands' last axes, into a zero accumulator, read at an entry: the sum over the
    contracted index of the products of the two ROWS' entries. -/
theorem transposedRhs_matmul_apply {φ₁ φ₂ : FTy} (M K N : Nat) (prec : Option ContractPrecision)
    (x : FVec Ideal ⟨2, ![M, K]⟩ φ₁) (w : FVec Ideal ⟨2, ![N, K]⟩ φ₂) (j : (⟨2, ![M, N]⟩ : Shape).Idx) :
    FloatOps.matmul (DotDims.transposedRhs M K N) prec x w (constant ⟨2, ![M, N]⟩ .f32 0x00000000#32) j
      = ∑ k : Fin K, x (ix2 (j 0) k) * w (ix2 (j 1) k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposedRhs_lhs_row M K N _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposedRhs_rhs_row M K N _ _
      | ⟨1, _⟩ => exact ((DotDims.transposedRhs M K N).rhsIdx_val_of_single rfl _ _).trans hk)
  rw [el, er]
  rfl

end Cert.MatT

end
-- ==== Proof.KernelWeights.lean ====
/-
  The weights the kernel body computes for one row of its input block, read at an entry.

  Row `c` of the block is divided by its Euclidean norm clamped below; its inner products with the bank's rows are
  shifted by their largest, exponentiated and divided by their sum; each weight is lowered by the threshold, cut at
  zero and divided by the sum of the cut weights clamped below. Every step acts within the row, so entry `(c, j)` of
  the result is weight `j` of row `c`.
-/
import proofs.«138025_j73375221285179_1_alg».proof.Proof.Gen.KernelIdeal.Skeleton
import proofs.«138025_j73375221285179_1_alg».proof.Proof.Spec
import proofs.«138025_j73375221285179_1_alg».proof.Proof.LibPlainMatmul
import proofs.«138025_j73375221285179_1_alg».proof.Proof.LibRank2
import proofs.«138025_j73375221285179_1_alg».proof.Proof.LibTransposedMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Row

open Cert.KernelIdeal Cert.KernelIdeal.Gen Cert.Addressing Idealize.ShloMosaic Idealize.ShloMosaic.ValueIdx

/-- Row `c` of the input block. -/
def blockRow (v0 : Vec Ideal S1x512x1024 .f32) (c : Fin 512) (k : Fin 1024) : EReal := v0 (ix3 (0 : Fin 1) c k)
/-- The bank block's rows. -/
def blockBank (v10 : Vec Ideal S512x1024 .bf16) (j : Fin 512) (k : Fin 1024) : EReal := v10 (ix2 j k)

namespace Weights

/-- The sum over a row, laid out as a column. -/
theorem sumCol_apply {B : ℕ} (t : FVec Ideal ⟨2, ![512, B]⟩ .f32) (hR : Shape.Reduces ⟨2, ![512, B]⟩ [1] S512)
    (hS : S512.ShapeCasts S512x1) (c : Fin 512) (u : Fin 1) :
    shapeCast S512x1 (multiReduction .add [1] S512 t 0x00000000#32 hR (.inl rfl) rfl) hS (ix2 c u)
      = ∑ k : Fin B, t (ix2 c k) :=
  (Cert.Lib2.shapeCast_a_a1_apply _ hS c u).trans (Cert.Lib2.multiReduction_add_axis1 t _ hR _ _ c)

/-- The largest entry of a row, laid out as a column. -/
theorem maxCol_apply {B : ℕ} (t : FVec Ideal ⟨2, ![512, B]⟩ .f32) (hR : Shape.Reduces ⟨2, ![512, B]⟩ [1] S512)
    (hS : S512.ShapeCasts S512x1) (c : Fin 512) (u : Fin 1) :
    shapeCast S512x1 (multiReduction .maximumf [1] S512 t 0xFF800000#32 hR (.inl rfl) rfl) hS (ix2 c u)
      = (Finset.univ : Finset (Fin B)).fold max ⊥ (fun k => t (ix2 c k)) :=
  (Cert.Lib2.shapeCast_a_a1_apply _ hS c u).trans
    ((Cert.Lib2.multiReduction_max_axis1 t _ hR _ _ c).trans
      (congrArg (fun a => (Finset.univ : Finset (Fin B)).fold max a (fun k => t (ix2 c k))) ofBits_negInf))

/-- A row divided by its clamped Euclidean norm. -/
theorem unit_apply (x : FVec Ideal S512x1024 .f32) (hR : S512x1024.Reduces [1] S512) (hS : S512.ShapeCasts S512x1)
    (hB : S512x1.Broadcasts S512x1024) (c : Fin 512) (k : Fin 1024) :
    divf x (broadcastTo S512x1024 (maximumf (sqrt (shapeCast S512x1
        (multiReduction .add [1] S512 (mulf x x) 0x00000000#32 hR (.inl rfl) rfl) hS))
        (broadcast S512x1 (Scalar.ofBits .f32 0x2B8CBCCC#32))) hB) (ix2 c k)
      = unitRow (fun k => x (ix2 c k)) k := by
  refine congrArg (Ideal.div (x (ix2 c k))) ?_
  refine (Cert.Gnn.broadcastTo_a1_ab_apply _ hB c k).trans ?_
  exact congrArg (fun a => max (Ideal.sqrt a) eps) (sumCol_apply (mulf x x) hR hS c 0)

/-! ## The weights of a row as a function of its 512 inner products with the bank's rows -/

/-- The largest of a row's inner products. -/
def rowMax (s : Fin 512 → EReal) : EReal := (Finset.univ : Finset (Fin 512)).fold max ⊥ s
/-- The exponential of an inner product shifted by the row's largest. -/
def rowExp (s : Fin 512 → EReal) (j : Fin 512) : EReal := Ideal.exp (s j - rowMax s)
/-- The softmax weight: the shifted exponential divided by the sum of the row's. -/
def rowSoft (s : Fin 512 → EReal) (j : Fin 512) : EReal := Ideal.div (rowExp s j) (∑ j' : Fin 512, rowExp s j')
/-- The weight lowered by the threshold and cut at zero. -/
def rowShrunk (s : Fin 512 → EReal) (j : Fin 512) : EReal := max (rowSoft s j - shrink) 0
/-- The renormalised weight: divided by the sum of the cut weights, clamped below by `ε`. -/
def rowAtt (s : Fin 512 → EReal) (j : Fin 512) : EReal :=
  Ideal.div (rowShrunk s j) (max (∑ j' : Fin 512, rowShrunk s j') eps)

/-- The weights of a row depend on the row and the bank only through the row's inner products with the bank's rows. -/
theorem att_eq_rowAtt (M : Fin 512 → Fin 1024 → EReal) (x : Fin 1024 → EReal) (j : Fin 512) :
    att M x j = rowAtt (sim M x) j := rfl

/-- The shifted exponential of a row's entries. -/
theorem expo_apply (s : FVec Ideal S512x512 .f32) (hR : S512x512.Reduces [1] S512) (hS : S512.ShapeCasts S512x1)
    (hB : S512x1.Broadcasts S512x512) (c j : Fin 512) :
    exp (subf s (broadcastTo S512x512 (shapeCast S512x1
        (multiReduction .maximumf [1] S512 s 0xFF800000#32 hR (.inl rfl) rfl) hS) hB)) (ix2 c j)
      = rowExp (fun j => s (ix2 c j)) j :=
  congrArg (fun a => Ideal.exp (s (ix2 c j) - a))
    ((Cert.Gnn.broadcastTo_a1_ab_apply _ hB c j).trans (maxCol_apply s hR hS c 0))

/-- An entry divided by the sum of its row. -/
theorem divRowSum_apply (e : FVec Ideal S512x512 .f32) (hR : S512x512.Reduces [1] S512) (hS : S512.ShapeCasts S512x1)
    (hB : S512x1.Broadcasts S512x512) (c j : Fin 512) :
    divf e (broadcastTo S512x512 (shapeCast S512x1
        (multiReduction .add [1] S512 e 0x00000000#32 hR (.inl rfl) rfl) hS) hB) (ix2 c j)
      = Ideal.div (e (ix2 c j)) (∑ j' : Fin 512, e (ix2 c j')) :=
  congrArg (Ideal.div (e (ix2 c j)))
    ((Cert.Gnn.broadcastTo_a1_ab_apply _ hB c j).trans (sumCol_apply e hR hS c 0))

/-- An entry lowered by the threshold and cut at zero. -/
theorem shrink_apply (w : FVec Ideal S512x512 .f32) (i : S512x512.Idx) :
    maximumf (subf w (broadcast S512x512 (Scalar.ofBits .f32 0x3B23D70A#32)))
        (broadcast S512x512 (Scalar.ofBits .f32 0x00000000#32)) i
      = max (w i - shrink) 0 :=
  congrArg (max (w i - shrink)) Ideal.ofBits_zero_f32

/-- An entry divided by the sum of its row clamped below. -/
theorem divClampedRowSum_apply (q : FVec Ideal S512x512 .f32) (hR : S512x512.Reduces [1] S512)
    (hS : S512.ShapeCasts S512x1) (hB : S512x1.Broadcasts S512x512) (c j : Fin 512) :
    divf q (broadcastTo S512x512 (maximumf (shapeCast S512x1
        (multiReduction .add [1] S512 q 0x00000000#32 hR (.inl rfl) rfl) hS)
        (broadcast S512x1 (Scalar.ofBits .f32 0x2B8CBCCC#32))) hB) (ix2 c j)
      = Ideal.div (q (ix2 c j)) (max (∑ j' : Fin 512, q (ix2 c j')) eps) :=
  congrArg (Ideal.div (q (ix2 c j)))
    ((Cert.Gnn.broadcastTo_a1_ab_apply _ hB c j).trans
      (congrArg (fun a => max a eps) (sumCol_apply q hR hS c 0)))

/-- The operations from the inner products to the weights. -/
def weightsOfSims (s : FVec Ideal S512x512 .f32) (hR : S512x512.Reduces [1] S512) (hS : S512.ShapeCasts S512x1)
    (hB : S512x1.Broadcasts S512x512) : FVec Ideal S512x512 .f32 :=
  have e : FVec Ideal S512x512 .f32 := exp (subf s (broadcastTo S512x512 (shapeCast S512x1
    (multiReduction .maximumf [1] S512 s 0xFF800000#32 hR (.inl rfl) rfl) hS) hB))
  have w : FVec Ideal S512x512 .f32 := divf e (broadcastTo S512x512 (shapeCast S512x1
    (multiReduction .add [1] S512 e 0x00000000#32 hR (.inl rfl) rfl) hS) hB)
  have q : FVec Ideal S512x512 .f32 := maximumf (subf w (broadcast S512x512 (Scalar.ofBits .f32 0x3B23D70A#32)))
    (broadcast S512x512 (Scalar.ofBits .f32 0x00000000#32))
  divf q (broadcastTo S512x512 (maximumf (shapeCast S512x1
    (multiReduction .add [1] S512 q 0x00000000#32 hR (.inl rfl) rfl) hS)
    (broadcast S512x1 (Scalar.ofBits .f32 0x2B8CBCCC#32))) hB)

/-- Entry `(c, j)` of the weights computed from an array of inner products is weight `j` of its row `c`. -/
theorem weightsOfSims_apply (s : FVec Ideal S512x512 .f32) (hR : S512x512.Reduces [1] S512)
    (hS : S512.ShapeCasts S512x1) (hB : S512x1.Broadcasts S512x512) (c j : Fin 512) :
    weightsOfSims s hR hS hB (ix2 c j) = rowAtt (fun j => s (ix2 c j)) j := by
  have he : ∀ j : Fin 512, exp (subf s (broadcastTo S512x512 (shapeCast S512x1
      (multiReduction .maximumf [1] S512 s 0xFF800000#32 hR (.inl rfl) rfl) hS) hB)) (ix2 c j)
        = rowExp (fun j => s (ix2 c j)) j := fun j => expo_apply s hR hS hB c j
  have hw : ∀ j : Fin 512, divf (exp (subf s (broadcastTo S512x512 (shapeCast S512x1
      (multiReduction .maximumf [1] S512 s 0xFF800000#32 hR (.inl rfl) rfl) hS) hB))) (broadcastTo S512x512 (shapeCast S512x1
      (multiReduction .add [1] S512 (exp (subf s (broadcastTo S512x512 (shapeCast S512x1
      (multiReduction .maximumf [1] S512 s 0xFF800000#32 hR (.inl rfl) rfl) hS) hB))) 0x00000000#32 hR (.inl rfl) rfl) hS) hB) (ix2 c j)
        = rowSoft (fun j => s (ix2 c j)) j := fun j =>
    (divRowSum_apply _ hR hS hB c j).trans
      (congrArg₂ Ideal.div (he j) (Finset.sum_congr rfl fun j' _ => he j'))
  unfold weightsOfSims
  refine (divClampedRowSum_apply _ hR hS hB c j).trans ?_
  have hq : ∀ j : Fin 512, _ = rowShrunk (fun j => s (ix2 c j)) j := fun j =>
    (shrink_apply _ (ix2 c j)).trans (congrArg (fun a => max (a - shrink) 0) (hw j))
  exact congrArg₂ (fun a b => Ideal.div a (max b eps)) (hq j) (Finset.sum_congr rfl fun j' _ => hq j')

end Weights

open Weights

/-- The weights the body computes for row `c`. -/
theorem weights_apply (v0 : Vec Ideal S1x512x1024 .f32) (v10 : Vec Ideal S512x1024 .bf16) (c j : Fin 512) :
    k0_pay5 (F := Ideal) v0 v10 (ix2 c j) = att (blockBank v10) (blockRow v0 c) j := by
  rw [att_eq_rowAtt]
  refine (weightsOfSims_apply _ reduces_S512x512_S512 shapeCasts_S512_S512x1 broadcasts_S512x1_S512x512 c j).trans ?_
  refine congrArg (fun s => rowAtt s j) (funext fun j' => ?_)
  refine (Cert.MatT.transposedRhs_matmul_apply 512 1024 512 none _ _ (ix2 c j')).trans ?_
  refine Finset.sum_congr rfl fun k _ => ?_
  have hrow : (fun k => shapeCast S512x1024 v0 shapeCasts_S1x512x1024_S512x1024 (ix2 c k)) = blockRow v0 c :=
    funext fun k => shapeCast_1ab_ab_apply v0 _ c k
  refine congrArg₂ (· * ·) ?_ ?_
  · exact (unit_apply (shapeCast S512x1024 v0 shapeCasts_S1x512x1024_S512x1024) reduces_S512x1024_S512
      shapeCasts_S512_S512x1 broadcasts_S512x1_S512x1024 c k).trans (congrArg (fun x => unitRow x k) hrow)
  · exact congrFun (shapeCast_self v10 _) (ix2 j' k)

end Cert.KernelIdeal.Row

end
-- ==== Proof.LibContractRows.lean ====
/-
  A matrix product that contracts BOTH operands' first axes, read at an entry, at the ideal instance (floats are
  extended reals).

  For `x : [K, M]` and `w : [K, N]` the product `xᵀ · w : [M, N]` has the dimension numbers
  `<[0], [0], [1], [1], …>`: the left operand's first axis is contracted with the right operand's first axis, the
  left operand's second axis is the result's row axis and the right operand's second axis its column axis. Into a zero
  accumulator its entry `(r, c)` is the textbook sum over `k` of `x[k, r] · w[k, c]`; the host's `dot_general` with the
  same dimension numbers is the same sum.
-/
import Idealize.ShloMosaic.PureOps.Ideal.Laws
import Idealize.ShloMosaic.Lib.ValueIdx
import Idealize.ShloMosaic.Lib.Pipeline.Value

noncomputable section

open scoped BigOperators

namespace Cert.ContractRows

open Idealize.ShloMosaic Idealize.ShloMosaic.ValueIdx

/-- The dimension numbers `<[0], [0], [1], [1], [0, 1, 1, 1], [], []>`: `K×M` by `K×N`, both contracted on the
    first axis. -/
def rowsDims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand's column coordinate is the result's row coordinate. -/
theorem rows_lhs_col (K M N : Nat) (j : (⟨2, ![M, N]⟩ : Shape).Idx) (q : (rowsDims K M N).contr.Idx) :
    ((rowsDims K M N).lhsIdx j q 1).val = (j 0).val := by
  unfold DotDims.lhsIdx
  rw [dif_neg (show ¬(1 : Fin (⟨2, ![K, M]⟩ : Shape).rank) ∈ (rowsDims K M N).lhsBatch by simp [rowsDims]),
    dif_pos (show (1 : Fin (⟨2, ![K, M]⟩ : Shape).rank) ∈ (rowsDims K M N).lhsNonContracting by simp [rowsDims])]
  rfl

/-- The right operand's column coordinate is the result's column coordinate. -/
theorem rows_rhs_col (K M N : Nat) (j : (⟨2, ![M, N]⟩ : Shape).Idx) (q : (rowsDims K M N).contr.Idx) :
    ((rowsDims K M N).rhsIdx j q 1).val = (j 1).val := by
  unfold DotDims.rhsIdx
  rw [dif_neg (show ¬(1 : Fin (⟨2, ![K, N]⟩ : Shape).rank) ∈ (rowsDims K M N).rhsBatch by simp [rowsDims]),
    dif_pos (show (1 : Fin (⟨2, ![K, N]⟩ : Shape).rank) ∈ (rowsDims K M N).rhsNonContracting by simp [rowsDims])]
  rfl

/-- The two operands' indices at contracted coordinate `k`: row `k` of each, at the result's row and column. -/
theorem rows_idx (K M N : Nat) (j : (⟨2, ![M, N]⟩ : Shape).Idx) (k : Fin K) :
    (rowsDims K M N).lhsIdx j ((contrEquiv1 (rowsDims K M N) K rfl rfl).symm k) = ix2 k (j 0)
      ∧ (rowsDims K M N).rhsIdx j ((contrEquiv1 (rowsDims K M N) K rfl rfl).symm k) = ix2 k (j 1) := by
  have hk := contrEquiv1_symm_val (rowsDims K M N) K rfl rfl k
  constructor
  · exact funext fun a => Fin.ext (by
      match a with
      | ⟨0, _⟩ => exact ((rowsDims K M N).lhsIdx_val_of_single rfl _ _).trans hk
      | ⟨1, _⟩ => exact rows_lhs_col K M N _ _)
  · exact funext fun a => Fin.ext (by
      match a with
      | ⟨0, _⟩ => exact ((rowsDims K M N).rhsIdx_val_of_single rfl _ _).trans hk
      | ⟨1, _⟩ => exact rows_rhs_col K M N _ _)

/-- The matrix unit's product contracting both first axes, into a zero accumulator, at explicit coordinates, for any
    dimension record equal to `rowsDims`: the sum over the contracted index of the products of the two rows' entries. -/
theorem matmul_rows_ix2 {φ₁ φ₂ : FTy} {K M N : ℕ} (d : DotDims ⟨2, ![K, M]⟩ ⟨2, ![K, N]⟩ ⟨2, ![M, N]⟩)
    (hd : d = rowsDims K M N) (prec : Option ContractPrecision)
    (x : FVec Ideal ⟨2, ![K, M]⟩ φ₁) (w : FVec Ideal ⟨2, ![K, N]⟩ φ₂) (r : Fin M) (c : Fin N) :
    matmul d prec x w (constant ⟨2, ![M, N]⟩ .f32 0x00000000#32) (ix2 r c) = ∑ k : Fin K, x (ix2 k r) * w (ix2 k c) := by
  subst hd
  show FloatOps.matmul (rowsDims K M N) prec x w (constant ⟨2, ![M, N]⟩ .f32 0x00000000#32) (ix2 r c) = _
  rw [Ideal.matmul_constant_zero_apply, ← Equiv.sum_comp (contrEquiv1 (rowsDims K M N) K rfl rfl).symm]
  refine Finset.sum_congr rfl fun k _ => ?_
  rw [(rows_idx K M N (ix2 r c) k).1, (rows_idx K M N (ix2 r c) k).2]
  rfl

/-- The host's `dot_general` contracting both first axes, at explicit coordinates: the same sum. -/
theorem dotGeneral_rows_ix2 {φ₁ φ₂ : FTy} {K M N : ℕ} (d : DotDims ⟨2, ![K, M]⟩ ⟨2, ![K, N]⟩ ⟨2, ![M, N]⟩)
    (hd : d = rowsDims K M N) (prec : Option ContractPrecision)
    (x : FVec Ideal ⟨2, ![K, M]⟩ φ₁) (w : FVec Ideal ⟨2, ![K, N]⟩ φ₂) (r : Fin M) (c : Fin N) :
    Host.dotGeneral d prec x w (ix2 r c) = ∑ k : Fin K, x (ix2 k r) * w (ix2 k c) := by
  subst hd
  show FloatOps.dotGeneral (rowsDims K M N) prec _ x w (ix2 r c) = _
  rw [Ideal.dotGeneral_apply, ← Equiv.sum_comp (contrEquiv1 (rowsDims K M N) K rfl rfl).symm]
  refine Finset.sum_congr rfl fun k _ => ?_
  rw [(rows_idx K M N (ix2 r c) k).1, (rows_idx K M N (ix2 r c) k).2]
  rfl

end Cert.ContractRows

end
-- ==== Proof.KernelRow.lean ====
/-
  The kernel body's three stored values, read at an entry, are the addressing step of the block's rows.

  The body holds one block of the input, `[1, 512, 1024]`, and the whole bank, `[512, 1024]`. Row `c` of the block is
  normalised, multiplied against the bank's rows, turned into shrunk and renormalised softmax weights; the weights
  are stored, their combination of the bank's rows is stored, and their average over the 512 rows of the block,
  repeated along the last axis, is stored.
-/
import proofs.«138025_j73375221285179_1_alg».proof.Proof.Gen.KernelIdeal.Skeleton
import proofs.«138025_j73375221285179_1_alg».proof.Proof.Spec
import proofs.«138025_j73375221285179_1_alg».proof.Proof.KernelWeights
import proofs.«138025_j73375221285179_1_alg».proof.Proof.LibPlainMatmul
import proofs.«138025_j73375221285179_1_alg».proof.Proof.LibRank2
import proofs.«138025_j73375221285179_1_alg».proof.Proof.LibTransposedMatmul
import proofs.«138025_j73375221285179_1_alg».proof.Proof.LibContractRows
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Row

open Cert.KernelIdeal Cert.KernelIdeal.Gen Cert.Addressing Idealize.ShloMosaic Idealize.ShloMosaic.ValueIdx

/-- The matrix unit's record for the read-out product is the plain `512 × 512` by `512 × 1024` record. -/
theorem readoutDims_eq : dot_S512x512_S512x1024_S512x1024_1_0_0_1_n_n = DotDims.plain 512 512 1024 := rfl

/-- The matrix unit's record for the channel average contracts both operands' first axes. -/
theorem avgDims_eq : dot_S512x512_S512x1_S512x1_0_0_1_1_n_n = Cert.ContractRows.rowsDims 512 512 1 := rfl

/-- The bank as the body re-reads it (a cast of its shape to itself), at an entry. -/
theorem bank_apply (v10 : Vec Ideal S512x1024 .bf16) (j : Fin 512) (k : Fin 1024) :
    k0_pay4 (F := Ideal) v10 (ix2 j k) = blockBank v10 j k := by
  unfold k0_pay4
  exact congrFun (shapeCast_self v10 shapeCasts_S512x1024_S512x1024) (ix2 j k)

/-- The read-out the body computes for row `c`. -/
theorem readout_apply (v0 : Vec Ideal S1x512x1024 .f32) (v10 : Vec Ideal S512x1024 .bf16) (c : Fin 512) (k : Fin 1024) :
    k0_pay6 (F := Ideal) v0 v10 (ix2 c k) = readout (blockBank v10) (blockRow v0 c) k := by
  unfold k0_pay6
  -- the product at `(c, k)` is the sum over `j` of weight `(c, j)` times bank entry `(j, k)`
  refine (Cert.Lib2.plain_matmul_ix2 512 512 1024 none
    (truncf .bf16 (k0_pay5 (F := Ideal) v0 v10) bitsLt_bf16_f32) (k0_pay4 (F := Ideal) v10) c k).trans ?_
  unfold readout
  refine Finset.sum_congr rfl fun j _ => ?_
  -- narrowing the weights is the identity on extended reals
  rw [truncf_apply, weights_apply, bank_apply]

/-- The channel average the body computes, the same at every column `k`. -/
theorem chanAvg_apply (v0 : Vec Ideal S1x512x1024 .f32) (v10 : Vec Ideal S512x1024 .bf16) (j : Fin 512) (k : Fin 1024) :
    k0_pay7 (F := Ideal) v0 v10 (ix2 j k) = chanAvg (blockBank v10) (blockRow v0) j := by
  unfold k0_pay7
  -- the column broadcast along the last axis reads the column's entry at row `j`
  refine (Cert.Gnn.broadcastTo_a1_ab_apply _ broadcasts_S512x1_S512x1024 j k).trans ?_
  -- the cast of a shape to itself is the identity
  rw [shapeCast_self]
  -- the product contracting both first axes, at `(j, 0)`, is the sum over the rows `c` of weight `(c, j)` times the word
  refine (Cert.ContractRows.matmul_rows_ix2 dot_S512x512_S512x1_S512x1_0_0_1_1_n_n avgDims_eq none
    (k0_pay5 (F := Ideal) v0 v10) (broadcast S512x1 (Scalar.ofBits (F := Ideal) .f32 0x3B000000#32)) j (0 : Fin 1)).trans ?_
  unfold chanAvg
  refine Finset.sum_congr rfl fun c _ => ?_
  rw [weights_apply]
  rfl

/-- The stored read-out block, with its leading unit axis. -/
theorem stored_readout (v0 : Vec Ideal S1x512x1024 .f32) (v10 : Vec Ideal S512x1024 .bf16) (u : Fin 1) (c : Fin 512) (k : Fin 1024) :
    k0_pay1 (F := Ideal) (k0_pay6 (F := Ideal) v0 v10) (ix3 u c k) = readout (blockBank v10) (blockRow v0 c) k := by
  unfold k0_pay1
  exact (shapeCast_ab_1ab_apply _ shapeCasts_S512x1024_S1x512x1024 u c k).trans (readout_apply v0 v10 c k)

/-- The stored channel-average block, with its leading unit axis. -/
theorem stored_chanAvg (v0 : Vec Ideal S1x512x1024 .f32) (v10 : Vec Ideal S512x1024 .bf16) (u : Fin 1) (j : Fin 512) (k : Fin 1024) :
    k0_pay2 (F := Ideal) (k0_pay7 (F := Ideal) v0 v10) (ix3 u j k) = chanAvg (blockBank v10) (blockRow v0) j := by
  unfold k0_pay2
  exact (shapeCast_ab_1ab_apply _ shapeCasts_S512x1024_S1x512x1024 u j k).trans (chanAvg_apply v0 v10 j k)

/-- The stored weights block, with its leading unit axis. -/
theorem stored_weights (v0 : Vec Ideal S1x512x1024 .f32) (v10 : Vec Ideal S512x1024 .bf16) (u : Fin 1) (c j : Fin 512) :
    k0_pay3 (F := Ideal) (k0_pay5 (F := Ideal) v0 v10) (ix3 u c j) = att (blockBank v10) (blockRow v0 c) j := by
  unfold k0_pay3
  exact (shapeCast_ab_1ab_apply _ shapeCasts_S512x512_S1x512x512 u c j).trans (weights_apply v0 v10 c j)

end Cert.KernelIdeal.Row

end
-- ==== Proof.KernelBlocks.lean ====
/-
  From the blocks each grid point writes back to the three result arrays of the kernel region.

  Grid point `t` reads block `t` of the input, `[t, :, :]`, and the whole bank, and writes block `t` of each result.
  The 32 blocks tile each result array, so after the run each array is, entry by entry, the addressing step of the
  input's rows: entry `(n, c, k)` of the first is the read-out of row `(n, c)`, entry `(n, j, k)` of the second the
  channel average of batch `n` at weight `j`, entry `(n, c, j)` of the third weight `j` of row `(n, c)`.
-/
import proofs.«138025_j73375221285179_1_alg».proof.Proof.Gen.KernelIdeal.Frame
import proofs.«138025_j73375221285179_1_alg».proof.Proof.KernelRow
import Idealize.ShloMosaic.Lib.Pipeline.Value

noncomputable section

open scoped BigOperators

namespace Cert.KernelIdeal.Blocks

open Cert.KernelIdeal Cert.KernelIdeal.Gen Cert.Addressing Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Row `(n, c)` of the input as the region finds it, `[32, 512, 1024]`. -/
def row3 (X3 : S32x512x1024.Idx → EReal) (n : Fin 32) (c : Fin 512) (k : Fin 1024) : EReal := X3 (ix3 n c k)

/-- The read-out array. -/
def readoutArr (Bk : S512x1024.Idx → EReal) (X3 : S32x512x1024.Idx → EReal) : S32x512x1024.Idx → EReal := fun i =>
  readout (bankOf Bk) (row3 X3 (i 0) (i 1)) (i 2)
/-- The channel-average array. -/
def avgArr (Bk : S512x1024.Idx → EReal) (X3 : S32x512x1024.Idx → EReal) : S32x512x1024.Idx → EReal := fun i =>
  chanAvg (bankOf Bk) (row3 X3 (i 0)) (i 1)
/-- The weights array. -/
def attArr (Bk : S512x1024.Idx → EReal) (X3 : S32x512x1024.Idx → EReal) : S32x512x512.Idx → EReal := fun i =>
  att (bankOf Bk) (row3 X3 (i 0) (i 1)) (i 2)

/-! ## The stored blocks at a block index -/

/-- The offsets of a whole block, rank 3. -/
theorem zeros3 : (![0, 0, 0] : Fin 3 → Nat) = fun _ => 0 := funext fun a => by fin_cases a <;> rfl
/-- The offsets of the whole bank, rank 2. -/
theorem zeros2 : (![0, 0] : Fin 2 → Nat) = fun _ => 0 := funext fun a => by fin_cases a <;> rfl

open Cert.KernelIdeal.Row

/-- The stored read-out block at a block index: the read-out of the block's row at the index's column. -/
theorem readout_at (v0 : Vec Ideal S1x512x1024 .f32) (v10 : Vec Ideal S512x1024 .bf16) (y : S1x512x1024.Idx) :
    k0_pay1 (F := Ideal) (k0_pay6 (F := Ideal) v0 v10) y = readout (blockBank v10) (blockRow v0 (y 1)) (y 2) :=
  (congrArg (k0_pay1 (F := Ideal) (k0_pay6 (F := Ideal) v0 v10)) (eq_ix3 y)).trans (stored_readout v0 v10 (y 0) (y 1) (y 2))

/-- The stored channel-average block at a block index: the channel average of the block's rows at weight `y 1`. -/
theorem chanAvg_at (v0 : Vec Ideal S1x512x1024 .f32) (v10 : Vec Ideal S512x1024 .bf16) (y : S1x512x1024.Idx) :
    k0_pay2 (F := Ideal) (k0_pay7 (F := Ideal) v0 v10) y = chanAvg (blockBank v10) (blockRow v0) (y 1) :=
  (congrArg (k0_pay2 (F := Ideal) (k0_pay7 (F := Ideal) v0 v10)) (eq_ix3 y)).trans (stored_chanAvg v0 v10 (y 0) (y 1) (y 2))

/-- The stored weights block at a block index: weight `y 2` of the block's row `y 1`. -/
theorem weights_at (v0 : Vec Ideal S1x512x1024 .f32) (v10 : Vec Ideal S512x1024 .bf16) (y : S1x512x512.Idx) :
    k0_pay3 (F := Ideal) (k0_pay5 (F := Ideal) v0 v10) y = att (blockBank v10) (blockRow v0 (y 1)) (y 2) :=
  (congrArg (k0_pay3 (F := Ideal) (k0_pay5 (F := Ideal) v0 v10)) (eq_ix3 y)).trans (stored_weights v0 v10 (y 0) (y 1) (y 2))

/-! ## The block index maps over the grid -/

/-- The block index maps, decided over the 32 grid points: point `t` takes block `t` along the leading axis of the
    input and of each result, block 0 on the other axes, and the whole bank. -/
theorem index_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The grid has 32 points. -/
theorem points : cfg0.N = 32 := by decide

/-! ## The input blocks as rows of the arrays -/

/-- Row `cc` of the input's block at point `t` is row `(n, cc)` of the input, `n` the point: the block's entry
    `(0, cc, k)` sits at `(t · 1 + 0, 0 · 512 + cc, 0 · 1024 + k)`. -/
theorem blockRow_eq (c : Dev nD) (t : Fin cfg0.N) (n : Fin 32) (hn : n.val = t.val) (cc : Fin 512) :
    blockRow (iblk m c 0 t) cc = row3 (V m c main_v19) n cc := by
  obtain ⟨⟨e0, e1, e2⟩, -⟩ := index_facts t
  funext k
  show V m c main_v19 (((cfg0.win 0).blk t).view.emb (ix3 (0 : Fin 1) cc k)) = V m c main_v19 (ix3 n cc k)
  refine congrArg (V m c main_v19 : S32x512x1024.Idx → EReal) (funext fun a => Fin.ext ?_)
  match a with
  | ⟨0, _⟩ => show win0_0.index t (0 : Fin 3) * 1 + 1 * 0 = n.val; omega
  | ⟨1, _⟩ => show win0_0.index t (1 : Fin 3) * 512 + 1 * cc.val = cc.val; omega
  | ⟨2, _⟩ => show win0_0.index t (2 : Fin 3) * 1024 + 1 * k.val = k.val; omega

/-- The bank's block at every point is the whole bank. -/
theorem blockBank_eq (c : Dev nD) (t : Fin cfg0.N) : blockBank (iblk m c 1 t) = bankOf (V m c main_v18) := by
  obtain ⟨-, ⟨e0, e1⟩, -⟩ := index_facts t
  funext j k
  show V m c main_v18 (((cfg0.win 1).blk t).view.emb (ix2 j k)) = V m c main_v18 (ix2 j k)
  refine congrArg (V m c main_v18 : S512x1024.Idx → EReal) (funext fun a => Fin.ext ?_)
  match a with
  | ⟨0, _⟩ => show win0_1.index t (0 : Fin 2) * 512 + 1 * j.val = j.val; omega
  | ⟨1, _⟩ => show win0_1.index t (1 : Fin 2) * 1024 + 1 * k.val = k.val; omega

/-! ## The result arrays at an index given by its coordinates -/

theorem readoutArr_apply (Bk : S512x1024.Idx → EReal) (X3 : S32x512x1024.Idx → EReal) (i : S32x512x1024.Idx)
    (n : Fin 32) (cc : Fin 512) (k : Fin 1024) (h0 : (i 0).val = n.val) (h1 : (i 1).val = cc.val) (h2 : (i 2).val = k.val) :
    readoutArr Bk X3 i = readout (bankOf Bk) (row3 X3 n cc) k := by
  obtain rfl : i = ix3 n cc k := funext fun a => Fin.ext (match a with | ⟨0, _⟩ => h0 | ⟨1, _⟩ => h1 | ⟨2, _⟩ => h2)
  rfl

theorem avgArr_apply (Bk : S512x1024.Idx → EReal) (X3 : S32x512x1024.Idx → EReal) (i : S32x512x1024.Idx)
    (n : Fin 32) (j : Fin 512) (h0 : (i 0).val = n.val) (h1 : (i 1).val = j.val) :
    avgArr Bk X3 i = chanAvg (bankOf Bk) (row3 X3 n) j := by
  obtain rfl : i 0 = n := Fin.ext h0
  obtain rfl : i 1 = j := Fin.ext h1
  rfl

theorem attArr_apply (Bk : S512x1024.Idx → EReal) (X3 : S32x512x1024.Idx → EReal) (i : S32x512x512.Idx)
    (n : Fin 32) (cc : Fin 512) (j : Fin 512) (h0 : (i 0).val = n.val) (h1 : (i 1).val = cc.val) (h2 : (i 2).val = j.val) :
    attArr Bk X3 i = att (bankOf Bk) (row3 X3 n cc) j := by
  obtain rfl : i = ix3 n cc j := funext fun a => Fin.ext (match a with | ⟨0, _⟩ => h0 | ⟨1, _⟩ => h1 | ⟨2, _⟩ => h2)
  rfl

/-! ## What each point writes back -/

/-- What point `t` writes back to the first result is block `t` of the read-out array. -/
theorem flushed2_eq (c : Dev nD) (t : Fin cfg0.N) :
    (dats m 0 c).flushed 2 t = ((cfg0.win 2).blk t).view.read (Elt Ideal) (readoutArr (V m c main_v18) (V m c main_v19)) := by
  show (cfg0.win 2).cut (grid0.coords t) ((dats m 0 c).after 2 t) = _
  rw [after0_2]
  unfold out0_2
  rw [View.canon_unit_zero zeros3]
  simp only [View.ld_unit_zero (S := S1x512x1024) zeros3, View.ld_unit_zero (S := S512x1024) zeros2]
  obtain ⟨-, -, ⟨e0, e1, e2⟩, -⟩ := index_facts t
  funext y
  show k0_pay1 (F := Ideal) (k0_pay6 (F := Ideal) (iblk m c 0 t) (iblk m c 1 t)) y
    = readoutArr (V m c main_v18) (V m c main_v19) (((cfg0.win 2).blk t).view.emb y)
  have hy0 : (y 0).val < 1 := (y 0).isLt
  refine (readout_at (iblk m c 0 t) (iblk m c 1 t) y).trans ?_
  refine Eq.trans ?_ (readoutArr_apply (V m c main_v18) (V m c main_v19) (((cfg0.win 2).blk t).view.emb y)
    (Fin.cast points t) (y 1) (y 2) ?_ ?_ ?_).symm
  · exact congrArg₂ (fun M x => readout M x (y 2)) (blockBank_eq m c t) (blockRow_eq m c t (Fin.cast points t) rfl (y 1))
  · show win0_2.index t (0 : Fin 3) * 1 + 1 * (y 0).val = t.val; omega
  · show win0_2.index t (1 : Fin 3) * 512 + 1 * (y 1).val = (y 1).val; omega
  · show win0_2.index t (2 : Fin 3) * 1024 + 1 * (y 2).val = (y 2).val; omega

/-- What point `t` writes back to the second result is block `t` of the channel-average array. -/
theorem flushed3_eq (c : Dev nD) (t : Fin cfg0.N) :
    (dats m 0 c).flushed 3 t = ((cfg0.win 3).blk t).view.read (Elt Ideal) (avgArr (V m c main_v18) (V m c main_v19)) := by
  show (cfg0.win 3).cut (grid0.coords t) ((dats m 0 c).after 3 t) = _
  rw [after0_3]
  unfold out0_3
  rw [View.canon_unit_zero zeros3]
  simp only [View.ld_unit_zero (S := S1x512x1024) zeros3, View.ld_unit_zero (S := S512x1024) zeros2]
  obtain ⟨-, -, -, ⟨e0, e1, e2⟩, -⟩ := index_facts t
  funext y
  show k0_pay2 (F := Ideal) (k0_pay7 (F := Ideal) (iblk m c 0 t) (iblk m c 1 t)) y
    = avgArr (V m c main_v18) (V m c main_v19) (((cfg0.win 3).blk t).view.emb y)
  have hy0 : (y 0).val < 1 := (y 0).isLt
  refine (chanAvg_at (iblk m c 0 t) (iblk m c 1 t) y).trans ?_
  refine Eq.trans ?_ (avgArr_apply (V m c main_v18) (V m c main_v19) (((cfg0.win 3).blk t).view.emb y)
    (Fin.cast points t) (y 1) ?_ ?_).symm
  · exact congrArg₂ (fun M xs => chanAvg M xs (y 1)) (blockBank_eq m c t)
      (funext fun cc => blockRow_eq m c t (Fin.cast points t) rfl cc)
  · show win0_3.index t (0 : Fin 3) * 1 + 1 * (y 0).val = t.val; omega
  · show win0_3.index t (1 : Fin 3) * 512 + 1 * (y 1).val = (y 1).val; omega

/-- What point `t` writes back to the third result is block `t` of the weights array. -/
theorem flushed4_eq (c : Dev nD) (t : Fin cfg0.N) :
    (dats m 0 c).flushed 4 t = ((cfg0.win 4).blk t).view.read (Elt Ideal) (attArr (V m c main_v18) (V m c main_v19)) := by
  show (cfg0.win 4).cut (grid0.coords t) ((dats m 0 c).after 4 t) = _
  rw [after0_4]
  unfold out0_4
  rw [View.canon_unit_zero zeros3]
  simp only [View.ld_unit_zero (S := S1x512x1024) zeros3, View.ld_unit_zero (S := S512x1024) zeros2]
  obtain ⟨-, -, -, -, ⟨e0, e1, e2⟩⟩ := index_facts t
  funext y
  show k0_pay3 (F := Ideal) (k0_pay5 (F := Ideal) (iblk m c 0 t) (iblk m c 1 t)) y
    = attArr (V m c main_v18) (V m c main_v19) (((cfg0.win 4).blk t).view.emb y)
  have hy0 : (y 0).val < 1 := (y 0).isLt
  refine (weights_at (iblk m c 0 t) (iblk m c 1 t) y).trans ?_
  refine Eq.trans ?_ (attArr_apply (V m c main_v18) (V m c main_v19) (((cfg0.win 4).blk t).view.emb y)
    (Fin.cast points t) (y 1) (y 2) ?_ ?_ ?_).symm
  · exact congrArg₂ (fun M x => att M x (y 2)) (blockBank_eq m c t) (blockRow_eq m c t (Fin.cast points t) rfl (y 1))
  · show win0_4.index t (0 : Fin 3) * 1 + 1 * (y 0).val = t.val; omega
  · show win0_4.index t (1 : Fin 3) * 512 + 1 * (y 1).val = (y 1).val; omega
  · show win0_4.index t (2 : Fin 3) * 512 + 1 * (y 2).val = (y 2).val; omega

/-! ## The 32 blocks tile each result -/

/-- An index of the first result is in point `t`'s block iff each coordinate is in the block's range on its axis. -/
theorem mem_blk2 (t : Fin cfg0.N) (i : S32x512x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v20_0).slice (win0_2.rect t)).set ↔ _
  rw [View.set_slice_whole, Rect.mem_set_unit]
  exact Iff.rfl

/-- The same for the second result. -/
theorem mem_blk3 (t : Fin cfg0.N) (i : S32x512x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v20_1).slice (win0_3.rect t)).set ↔ _
  rw [View.set_slice_whole, Rect.mem_set_unit]
  exact Iff.rfl

/-- The same for the third result. -/
theorem mem_blk4 (t : Fin cfg0.N) (i : S32x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v20_2).slice (win0_4.rect t)).set ↔ _
  rw [View.set_slice_whole, Rect.mem_set_unit]
  exact Iff.rfl

/-- Every index `(n, c, k)` of the first result is in the block of point `n`. -/
theorem cover2 (i : S32x512x1024.Idx) :
    ∃ t : Fin cfg0.N, (cfg0.win 2).flush t = true ∧ i ∈ ((cfg0.win 2).blk t).view.set := by
  have h0 : (i 0).val < 32 := (i 0).isLt
  have h1 : (i 1).val < 512 := (i 1).isLt
  have h2 : (i 2).val < 1024 := (i 2).isLt
  obtain ⟨t, ht⟩ : ∃ t : Fin cfg0.N, t.val = (i 0).val := ⟨Fin.cast points.symm ⟨(i 0).val, h0⟩, rfl⟩
  obtain ⟨-, -, ⟨e0, e1, e2⟩, -⟩ := index_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- Every index `(n, j, k)` of the second result is in the block of point `n`. -/
theorem cover3 (i : S32x512x1024.Idx) :
    ∃ t : Fin cfg0.N, (cfg0.win 3).flush t = true ∧ i ∈ ((cfg0.win 3).blk t).view.set := by
  have h0 : (i 0).val < 32 := (i 0).isLt
  have h1 : (i 1).val < 512 := (i 1).isLt
  have h2 : (i 2).val < 1024 := (i 2).isLt
  obtain ⟨t, ht⟩ : ∃ t : Fin cfg0.N, t.val = (i 0).val := ⟨Fin.cast points.symm ⟨(i 0).val, h0⟩, rfl⟩
  obtain ⟨-, -, -, ⟨e0, e1, e2⟩, -⟩ := index_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- Every index `(n, c, j)` of the third result is in the block of point `n`. -/
theorem cover4 (i : S32x512x512.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 512 := (i 2).isLt
  obtain ⟨t, ht⟩ : ∃ t : Fin cfg0.N, t.val = (i 0).val := ⟨Fin.cast points.symm ⟨(i 0).val, h0⟩, rfl⟩
  obtain ⟨-, -, -, -, ⟨e0, e1, e2⟩⟩ := index_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-! ## The arrays after the run -/

/-- After the run the first result array is the read-out array of the bank and input the region found. -/
theorem final2 (c : Dev nD) : (dats m 0 c).arrAt 2 cfg0.N = readoutArr (V m c main_v18) (V m c main_v19) := by
  exact (dats m 0 c).arrAt_eq_of_cover 2 (readoutArr (V m c main_v18) (V m c main_v19)) (fun t _ => flushed2_eq m c t) cover2

/-- After the run the second result array is the channel-average array. -/
theorem final3 (c : Dev nD) : (dats m 0 c).arrAt 3 cfg0.N = avgArr (V m c main_v18) (V m c main_v19) := by
  exact (dats m 0 c).arrAt_eq_of_cover 3 (avgArr (V m c main_v18) (V m c main_v19)) (fun t _ => flushed3_eq m c t) cover3

/-- After the run the third result array is the weights array. -/
theorem final4 (c : Dev nD) : (dats m 0 c).arrAt 4 cfg0.N = attArr (V m c main_v18) (V m c main_v19) := by
  exact (dats m 0 c).arrAt_eq_of_cover 4 (attArr (V m c main_v18) (V m c main_v19)) (fun t _ => flushed4_eq m c t) cover4

end Cert.KernelIdeal.Blocks

end
-- ==== Proof.LibMergeRows.lean ====
/-
  A reshape that merges the two leading axes of a rank-3 array into one, or splits them again, read at an entry.

  Row-major order puts entry `(i, j, k)` of an `[a, b, c]` array at position `(i · b + j) · c + k`, and entry `(r, k)`
  of an `[m, c]` array at `r · c + k`; a reshape keeps positions. So with `r = i · b + j` the two entries are the same
  element, whichever way the reshape goes.
-/
import Idealize.ShloMosaic.Lib.ValueIdx
import Idealize.ShloMosaic.Lib.Pipeline.Value

noncomputable section

namespace Cert.MergeRows

open Idealize.ShloMosaic Idealize.ShloMosaic.ValueIdx

variable {α : Type}

/-- `[a, b, c]` reshaped to `[m, c]`: row `r = i · b + j`, column `k` reads entry `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[m, c]` reshaped to `[a, b, c]`: entry `(i, j, k)` reads row `r = i · b + j`, column `k`. -/
theorem shapeCast_mc_abc_apply {a b c m : ℕ} (y : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ y h (ix3 i j k) = y (ix2 r k) :=
  shapeCast_apply y h _ _ (by
    rw [Shape.rowMajor_val_two, Shape.rowMajor_val_three]
    show r.val * c + k.val = (i.val * b + j.val) * c + k.val
    rw [hr])

end Cert.MergeRows

end
-- ==== Proof.KernelRun.lean ====
/-
  The kernel program's run, read as whole arrays.

  Before the region the host flattens the input to `[32, 512, 1024]` (and to `[16384, 1024]`, a result by itself),
  computes the bank and narrows it (a change of format, the identity on the extended reals). After the region it
  reshapes the three arrays the region wrote: the read-out and the channel average back to `[32, 512, 32, 32]`, the
  weights to `[16384, 512]`. A reshape keeps row-major positions, so entry `(n, c, h, w)` of a reshaped
  `[32, 512, 1024]` array is its entry `(n, c, 32 h + w)`, and row `r` of the reshaped weights is row
  `(r / 512, r % 512)`.
-/
import proofs.«138025_j73375221285179_1_alg».proof.Proof.Gen.KernelIdeal.Frame
import proofs.«138025_j73375221285179_1_alg».proof.Proof.KernelBlocks
import proofs.«138025_j73375221285179_1_alg».proof.Proof.Spec
import proofs.«138025_j73375221285179_1_alg».proof.Proof.LibMergeRows
import Idealize.ShloMosaic.Lib.StableHlo.Run
import Idealize.ShloMosaic.Lib.Pipeline.Value
import Idealize.ShloMosaic.Lib.ValueIdx

noncomputable section

open scoped BigOperators

namespace Cert.KernelIdeal.RunValue

open Cert.KernelIdeal Cert.KernelIdeal.Gen Cert.KernelIdeal.Blocks Cert.Addressing
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## What the region finds -/

/-- The region's input array is the launch input with its two trailing axes flattened. -/
theorem entry_input (c : Dev nD) :
    (V m c main_v19 : S32x512x1024.Idx → EReal)
      = shapeCast S32x512x1024 (m ((c : Thread nD τ).loc main_arg0)) shapeCasts_S32x512x32x32_S32x512x1024 := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The flattened input the program returns. -/
theorem entry_flat (c : Dev nD) :
    (V m c main_v0 : S16384x1024.Idx → EReal)
      = shapeCast S16384x1024 (m ((c : Thread nD τ).loc main_arg0)) shapeCasts_S32x512x32x32_S16384x1024 := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- Row `(n, c)` of the region's input array is row `(n, c)` of the launch input. -/
theorem row3_entry (c : Dev nD) (n : Fin 32) (cc : Fin 512) :
    row3 (V m c main_v19) n cc = rowOf (m ((c : Thread nD τ).loc main_arg0)) n cc := by
  funext k
  unfold row3 rowOf
  rw [entry_input]
  refine shapeCast_apply _ shapeCasts_S32x512x32x32_S32x512x1024 _ _ ?_
  rw [Shape.rowMajor_val_four, Shape.rowMajor_val_three]
  have hk : k.val < 1024 := k.isLt
  show ((n.val * 512 + cc.val) * 32 + k.val / 32) * 32 + k.val % 32 = (n.val * 512 + cc.val) * 1024 + k.val
  omega

/-! ## What the host leaves after the region -/

/-- The first result: the region's read-out array reshaped. -/
theorem tail_readout (c : Dev nD) :
    Pipeline.afterTail₀ cfgs (dats m) 0 (V0 m) [hostOps1] c main_v21
      = shapeCast S32x512x32x32 ((dats m 0 c).arrAt 2 cfg0.N) shapeCasts_S32x512x1024_S32x512x32x32 := by
  unfold Pipeline.afterTail₀
  show StableHlo.after hostOps1 _ (Proc.devRef .tc main_v21) = _
  after_results
  rw [Pipeline.withArrays_arr spec0 launch0.win.arr_inj c _ _ 2]
  rfl

/-- The second result: the region's channel-average array reshaped. -/
theorem tail_avg (c : Dev nD) :
    Pipeline.afterTail₀ cfgs (dats m) 0 (V0 m) [hostOps1] c main_v22
      = shapeCast S32x512x32x32 ((dats m 0 c).arrAt 3 cfg0.N) shapeCasts_S32x512x1024_S32x512x32x32 := by
  unfold Pipeline.afterTail₀
  show StableHlo.after hostOps1 _ (Proc.devRef .tc main_v22) = _
  after_results
  rw [Pipeline.withArrays_arr spec0 launch0.win.arr_inj c _ _ 3]
  rfl

/-- The fifth result: the region's weights array reshaped. -/
theorem tail_att (c : Dev nD) :
    Pipeline.afterTail₀ cfgs (dats m) 0 (V0 m) [hostOps1] c main_v23
      = shapeCast S16384x512 ((dats m 0 c).arrAt 4 cfg0.N) shapeCasts_S32x512x512_S16384x512 := by
  unfold Pipeline.afterTail₀
  show StableHlo.after hostOps1 _ (Proc.devRef .tc main_v23) = _
  after_results
  rw [Pipeline.withArrays_arr spec0 launch0.win.arr_inj c _ _ 4]
  rfl

/-- The host lines after the region leave the flattened input as the region found it. -/
theorem tail_flat (c : Dev nD) :
    Pipeline.afterTail₀ cfgs (dats m) 0 (V0 m) [hostOps1] c main_v0 = V m c main_v0 := by
  unfold Pipeline.afterTail₀
  rw [StableHlo.after_of_forall_not_mem (b := Proc.devRef .tc main_v0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v0 (by exact (by decide : ∀ w, Pipeline.arrRef spec0 w ≠ main_v0))]

/-- The host lines after the region leave the bank as the region found it. -/
theorem tail_bank (c : Dev nD) :
    Pipeline.afterTail₀ cfgs (dats m) 0 (V0 m) [hostOps1] c main_v17 = V m c main_v17 := by
  unfold Pipeline.afterTail₀
  rw [StableHlo.after_of_forall_not_mem (b := Proc.devRef .tc main_v17) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v17 (by exact (by decide : ∀ w, Pipeline.arrRef spec0 w ≠ main_v17))]

/-- The region's bank array is the bank the host computed: narrowing the format changes no extended real. -/
theorem entry_bank (c : Dev nD) :
    (V m c main_v18 : S512x1024.Idx → EReal) = (V m c main_v17 : S512x1024.Idx → EReal) := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append, after_cons, after_nil]
  rw [reshape_result_ne]; rotate_left; decide
  rw [unary_result]
  rw [reshape_result_ne]; rotate_left; decide
  rw [unary_result_ne]; rotate_left; decide
  rfl

/-! ## The five results -/

/-- Entry `(n, c, k)` of the region's read-out array, over the launch input and the host's bank. -/
theorem readoutArr_entry (c : Dev nD) (n : Fin 32) (cc : Fin 512) (k : Fin 1024) :
    readoutArr (V m c main_v18) (V m c main_v19) (ix3 n cc k)
      = readout (bankOf (V m c main_v17)) (rowOf (m ((c : Thread nD τ).loc main_arg0)) n cc) k := by
  show readout (bankOf (V m c main_v18)) (row3 (V m c main_v19) n cc) k = _
  rw [entry_bank, row3_entry]

/-- Entry `(n, j, k)` of the region's channel-average array. -/
theorem avgArr_entry (c : Dev nD) (n : Fin 32) (j : Fin 512) (k : Fin 1024) :
    avgArr (V m c main_v18) (V m c main_v19) (ix3 n j k)
      = chanAvg (bankOf (V m c main_v17)) (rowOf (m ((c : Thread nD τ).loc main_arg0)) n) j := by
  show chanAvg (bankOf (V m c main_v18)) (row3 (V m c main_v19) n) j = _
  rw [entry_bank, show row3 (V m c main_v19) n = rowOf (m ((c : Thread nD τ).loc main_arg0)) n from
    funext fun cc => row3_entry m c n cc]

/-- Entry `(n, c, j)` of the region's weights array. -/
theorem attArr_entry (c : Dev nD) (n : Fin 32) (cc : Fin 512) (j : Fin 512) :
    attArr (V m c main_v18) (V m c main_v19) (ix3 n cc j)
      = att (bankOf (V m c main_v17)) (rowOf (m ((c : Thread nD τ).loc main_arg0)) n cc) j := by
  show att (bankOf (V m c main_v18)) (row3 (V m c main_v19) n cc) j = _
  rw [entry_bank, row3_entry]

/-- The read-out array reshaped to `[32, 512, 32, 32]`: entry `(n, c, h, w)` is the read-out of row `(n, c)` at `32 h + w`. -/
theorem readout_result (c : Dev nD) :
    shapeCast S32x512x32x32 (readoutArr (V m c main_v18) (V m c main_v19)) shapeCasts_S32x512x1024_S32x512x32x32
      = outReadout (V m c main_v17) (m ((c : Thread nD τ).loc main_arg0)) := by
  funext i
  have h0 : (i 0).val < 32 := (i 0).isLt
  have h1 : (i 1).val < 512 := (i 1).isLt
  have h2 : (i 2).val < 32 := (i 2).isLt
  have h3 : (i 3).val < 32 := (i 3).isLt
  refine (shapeCast_apply _ shapeCasts_S32x512x1024_S32x512x32x32 i
    (ix3 (i 0) (i 1) (⟨(i 2).val * 32 + (i 3).val, by omega⟩ : Fin 1024)) ?_).trans ?_
  · rw [Shape.rowMajor_val_three, Shape.rowMajor_val_four]
    show ((i 0).val * 512 + (i 1).val) * 1024 + ((i 2).val * 32 + (i 3).val) = (((i 0).val * 512 + (i 1).val) * 32 + (i 2).val) * 32 + (i 3).val
    omega
  · exact readoutArr_entry m c (i 0) (i 1) _

/-- The channel-average array reshaped to `[32, 512, 32, 32]`: entry `(n, j, h, w)` is the average of weight `j` over batch `n`. -/
theorem avg_result (c : Dev nD) :
    shapeCast S32x512x32x32 (avgArr (V m c main_v18) (V m c main_v19)) shapeCasts_S32x512x1024_S32x512x32x32
      = outAvg (V m c main_v17) (m ((c : Thread nD τ).loc main_arg0)) := by
  funext i
  have h0 : (i 0).val < 32 := (i 0).isLt
  have h1 : (i 1).val < 512 := (i 1).isLt
  have h2 : (i 2).val < 32 := (i 2).isLt
  have h3 : (i 3).val < 32 := (i 3).isLt
  refine (shapeCast_apply _ shapeCasts_S32x512x1024_S32x512x32x32 i
    (ix3 (i 0) (i 1) (⟨(i 2).val * 32 + (i 3).val, by omega⟩ : Fin 1024)) ?_).trans ?_
  · rw [Shape.rowMajor_val_three, Shape.rowMajor_val_four]
    show ((i 0).val * 512 + (i 1).val) * 1024 + ((i 2).val * 32 + (i 3).val) = (((i 0).val * 512 + (i 1).val) * 32 + (i 2).val) * 32 + (i 3).val
    omega
  · exact avgArr_entry m c (i 0) (i 1) _

/-- The weights array reshaped to `[16384, 512]`: row `r` holds the weights of input row `(r / 512, r % 512)`. -/
theorem att_result (c : Dev nD) :
    shapeCast S16384x512 (attArr (V m c main_v18) (V m c main_v19)) shapeCasts_S32x512x512_S16384x512
      = outAtt (V m c main_v17) (m ((c : Thread nD τ).loc main_arg0)) := by
  funext i
  have h0 : (i 0).val < 16384 := (i 0).isLt
  have h1 : (i 1).val < 512 := (i 1).isLt
  refine (shapeCast_apply _ shapeCasts_S32x512x512_S16384x512 i
    (ix3 (⟨(i 0).val / 512, by omega⟩ : Fin 32) (⟨(i 0).val % 512, Nat.mod_lt _ (by decide)⟩ : Fin 512) (i 1)) ?_).trans ?_
  · rw [Shape.rowMajor_val_three, Shape.rowMajor_val_two]
    show ((i 0).val / 512 * 512 + (i 0).val % 512) * 512 + (i 1).val = (i 0).val * 512 + (i 1).val
    omega
  · exact attArr_entry m c _ _ (i 1)

/-- The flattened input: row `r` is input row `(r / 512, r % 512)`. -/
theorem flat_result (c : Dev nD) :
    (V m c main_v0 : S16384x1024.Idx → EReal) = outFlat (m ((c : Thread nD τ).loc main_arg0)) := by
  rw [entry_flat]
  funext i
  have h0 : (i 0).val < 16384 := (i 0).isLt
  have h1 : (i 1).val < 1024 := (i 1).isLt
  unfold outFlat rowOf
  refine shapeCast_apply _ shapeCasts_S32x512x32x32_S16384x1024 i _ ?_
  rw [Shape.rowMajor_val_four, Shape.rowMajor_val_two]
  show (((i 0).val / 512 * 512 + (i 0).val % 512) * 32 + (i 1).val / 32) * 32 + (i 1).val % 32 = (i 0).val * 1024 + (i 1).val
  omega

/-! ## The run -/

/-- Every weakly fair execution of the kernel program terminates with its five results at the addressing step's
    whole-array functions of the launch input and of the bank the host prefix computed, the arguments unchanged. -/
theorem run : θ_run defs (onTc (τ := τ) (main (F := Ideal))) ⟨m, fun _ => 0, ρ⟩ fun r => ∀ c : Dev nD,
      r.2.mem ((c.tc : Thread nD τ).loc main_v21) = outReadout (V m c main_v17) (m ((c.tc : Thread nD τ).loc main_arg0))
      ∧ r.2.mem ((c.tc : Thread nD τ).loc main_v22) = outAvg (V m c main_v17) (m ((c.tc : Thread nD τ).loc main_arg0))
      ∧ r.2.mem ((c.tc : Thread nD τ).loc main_v0) = outFlat (m ((c.tc : Thread nD τ).loc main_arg0))
      ∧ r.2.mem ((c.tc : Thread nD τ).loc main_v17) = V m c main_v17
      ∧ r.2.mem ((c.tc : Thread nD τ).loc main_v23) = outAtt (V m c main_v17) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v21 (Pipeline.mem_restRefs_of main_v21 (by decide) (by decide))).trans
        ((tail_readout m c).trans ((congrArg (fun A => shapeCast S32x512x32x32 A shapeCasts_S32x512x1024_S32x512x32x32) (final2 m c)).trans (readout_result m c))),
      ((h c).2 main_v22 (Pipeline.mem_restRefs_of main_v22 (by decide) (by decide))).trans
        ((tail_avg m c).trans ((congrArg (fun A => shapeCast S32x512x32x32 A shapeCasts_S32x512x1024_S32x512x32x32) (final3 m c)).trans (avg_result m c))),
      ((h c).2 main_v0 (Pipeline.mem_restRefs_of main_v0 (by decide) (by decide))).trans ((tail_flat m c).trans (flat_result m c)),
      ((h c).2 main_v17 (Pipeline.mem_restRefs_of main_v17 (by decide) (by decide))).trans (tail_bank m c),
      ((h c).2 main_v23 (Pipeline.mem_restRefs_of main_v23 (by decide) (by decide))).trans
        ((tail_att m c).trans ((congrArg (fun A => shapeCast S16384x512 A shapeCasts_S32x512x512_S16384x512) (final4 m c)).trans (att_result m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue

end
-- ==== Proof.RefWeights.lean ====
/-
  The reference's weights, read at an entry.

  Row `r` of the flattened input is input row `(r / 512, r % 512)`. The reference divides it by its Euclidean norm
  clamped below, multiplies against the transposed bank, shifts by the row's largest product (taken once more
  against `-∞`, which changes nothing), exponentiates, divides by the sum, lowers by the threshold, cuts at zero and
  divides by the sum of the cut weights clamped below. Entry `(r, j)` of the result is weight `j` of that row.
-/
import proofs.«138025_j73375221285179_1_alg».proof.Proof.Gen.ReferenceIdeal.Read
import proofs.«138025_j73375221285179_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.ReferenceIdeal.RefValue

open Cert.ReferenceIdeal Cert.ReferenceIdeal.Read Cert.Addressing Idealize.ShloMosaic Idealize.ShloMosaic.ValueIdx

variable (x0 : (⟨S32x512x32x32, .f32⟩ : BufTy).Contents (Elt Ideal)) (x1 x2 : (⟨S512x1024, .f32⟩ : BufTy).Contents (Elt Ideal))
  (x3 : (⟨S512, .f32⟩ : BufTy).Contents (Elt Ideal)) (x4 : (⟨S1024x512, .f32⟩ : BufTy).Contents (Elt Ideal))
  (x5 : (⟨S1024, .f32⟩ : BufTy).Contents (Elt Ideal))

/-- Row `r` of the flattened input is input row `(n, c)` when `r = 512 n + c`. -/
theorem flat_apply (n : Fin 32) (c : Fin 512) (r : Fin 16384) (hr : r.val = n.val * 512 + c.val) (k : Fin 1024) :
    val_main_v0 (F := Ideal) x0 (ix2 r k) = rowOf x0 n c k := by
  rw [val_main_v0_apply]
  unfold rowOf
  refine congrArg x0 (funext fun a => Fin.ext ?_)
  have hk : k.val < 1024 := k.isLt
  have hn : n.val < 32 := n.isLt
  have hc : c.val < 512 := c.isLt
  match a with
  | ⟨0, _⟩ => show (r.val * 1024 + k.val) / 524288 = n.val; omega
  | ⟨1, _⟩ => show (r.val * 1024 + k.val) / 1024 % 512 = c.val; omega
  | ⟨2, _⟩ => show (r.val * 1024 + k.val) / 32 % 32 = k.val / 32; omega
  | ⟨3, _⟩ => show (r.val * 1024 + k.val) % 32 = k.val % 32; omega

/-- The clamped norm of flattened row `r`: the square root of the sum of the squares, against `ε`. -/
private theorem norm_apply (n : Fin 32) (c : Fin 512) (r : Fin 16384) (hr : r.val = n.val * 512 + c.val) :
    val_main_v3 (F := Ideal) x0 (ix2 r (0 : Fin 1)) = clampedNorm (rowOf x0 n c) := by
  have e1 : idx_main_call0_v2 (ix2 r (0 : Fin 1)) = ix1 r :=
    funext fun a => Fin.ext (by match a with | ⟨0, _⟩ => rfl)
  rw [val_main_v3_apply, val_main_v1_apply, val_main_call0_v2_apply, val_main_v2_apply, val_main_cst_apply, e1,
    val_main_call0_v1_apply, val_main_call0_cst_apply]
  simp only [Ideal.maximumf_def, Ideal.hostUnary_sqrt_def, Ideal.ofBits_def, Ideal.ofBits_zero_f32, zero_add]
  unfold clampedNorm eps
  refine congrArg (fun s => max (Ideal.sqrt s) _) (Finset.sum_congr rfl fun k _ => ?_)
  have e2 : idx_main_call0_v1 (ix1 r) k = ix2 r k :=
    funext fun a => Fin.ext (by match a with | ⟨0, _⟩ => rfl | ⟨1, _⟩ => rfl)
  rw [e2, val_main_call0_v0_apply, flat_apply x0 n c r hr k]
  rfl

/-- The row divided by its clamped norm, at entry `(r, k)`. -/
private theorem unit_apply (n : Fin 32) (c : Fin 512) (r : Fin 16384) (hr : r.val = n.val * 512 + c.val) (k : Fin 1024) :
    val_main_v5 (F := Ideal) x0 (ix2 r k) = unitRow (rowOf x0 n c) k := by
  have e1 : idx_main_v4 (ix2 r k) = ix2 r (0 : Fin 1) :=
    funext fun a => Fin.ext (by match a with | ⟨0, _⟩ => rfl | ⟨1, _⟩ => rfl)
  rw [val_main_v5_apply, val_main_v4_apply, e1, norm_apply x0 n c r hr, flat_apply x0 n c r hr k]
  rfl

/-- The inner product of the normalised row with bank row `j`: the contraction against the transposed bank. -/
private theorem sim_apply (n : Fin 32) (c : Fin 512) (r : Fin 16384) (hr : r.val = n.val * 512 + c.val) (j : Fin 512) :
    val_main_v24 (F := Ideal) x0 x1 x2 x3 x4 x5 (ix2 r j)
      = sim (bankOf (val_main_v22 (F := Ideal) x1 x2 x3 x4 x5)) (rowOf x0 n c) j := by
  rw [val_main_v24_apply]
  unfold sim
  refine Finset.sum_congr rfl fun k _ => ?_
  have el : lidx_main_v24 (ix2 r j) k = ix2 r k :=
    funext fun a => Fin.ext (by match a with | ⟨0, _⟩ => rfl | ⟨1, _⟩ => rfl)
  have er : idx_main_v23 (ridx_main_v24 (ix2 r j) k) = ix2 j k :=
    funext fun a => Fin.ext (by match a with | ⟨0, _⟩ => rfl | ⟨1, _⟩ => rfl)
  rw [el, unit_apply x0 n c r hr k, val_main_v23_apply, er]
  rfl

/-- The largest inner product of the row: the fold of the maximum from `-∞` over the row, and one more maximum
    against `-∞`, which is the identity. -/
private theorem simMax_apply (n : Fin 32) (c : Fin 512) (r : Fin 16384) (hr : r.val = n.val * 512 + c.val) :
    val_main_v27 (F := Ideal) x0 x1 x2 x3 x4 x5 (ix1 r)
      = simMax (bankOf (val_main_v22 (F := Ideal) x1 x2 x3 x4 x5)) (rowOf x0 n c) := by
  rw [val_main_v27_apply, val_main_v26_apply, val_main_cst_2_apply]
  unfold val_main_v25
  rw [Host.reduce_eq_fold_single FloatOps.maximumf _ _ Gen.reducesTo_S16384x512_S16384_d1 (by decide) Gen.h_S_ (ix1 r),
    val_main_cst_1_apply]
  simp only [Ideal.maximumf_def, Ideal.ofBits_def, ofBits_negInf, bot_sup_eq]
  unfold simMax
  refine congrArg (fun f : Fin 512 → EReal => Finset.fold max ⊥ f Finset.univ) (funext fun j => ?_)
  refine (congrArg (val_main_v24 (F := Ideal) x0 x1 x2 x3 x4 x5) (funext fun a => Fin.ext (by
    match a with | ⟨0, _⟩ => rfl | ⟨1, _⟩ => rfl))).trans (sim_apply x0 x1 x2 x3 x4 x5 n c r hr j)

/-- The shifted exponential: the row's largest product, held once per row, is subtracted at every entry. -/
private theorem expo_apply (n : Fin 32) (c : Fin 512) (r : Fin 16384) (hr : r.val = n.val * 512 + c.val) (j : Fin 512) :
    val_main_v31 (F := Ideal) x0 x1 x2 x3 x4 x5 (ix2 r j)
      = expo (bankOf (val_main_v22 (F := Ideal) x1 x2 x3 x4 x5)) (rowOf x0 n c) j := by
  have e1 : idx_main_v28 (idx_main_v29 (ix2 r j)) = ix1 r :=
    funext fun a => Fin.ext (by match a with | ⟨0, _⟩ => rfl)
  rw [val_main_v31_apply, val_main_v30_apply, val_main_v29_apply, val_main_v28_apply, e1,
    sim_apply x0 x1 x2 x3 x4 x5 n c r hr j, simMax_apply x0 x1 x2 x3 x4 x5 n c r hr]
  rfl

/-- The softmax weight: the exponential divided by the row's sum of exponentials, a sum from zero. -/
private theorem soft_apply (n : Fin 32) (c : Fin 512) (r : Fin 16384) (hr : r.val = n.val * 512 + c.val) (j : Fin 512) :
    val_main_v35 (F := Ideal) x0 x1 x2 x3 x4 x5 (ix2 r j)
      = soft (bankOf (val_main_v22 (F := Ideal) x1 x2 x3 x4 x5)) (rowOf x0 n c) j := by
  have e1 : idx_main_v33 (idx_main_v34 (ix2 r j)) = ix1 r :=
    funext fun a => Fin.ext (by match a with | ⟨0, _⟩ => rfl)
  rw [val_main_v35_apply, val_main_v34_apply, val_main_v33_apply, e1, val_main_v32_apply, val_main_cst_3_apply,
    expo_apply x0 x1 x2 x3 x4 x5 n c r hr j]
  simp only [Ideal.hostDivf_def, Ideal.ofBits_def, Ideal.ofBits_zero_f32, zero_add]
  unfold soft
  refine congrArg (Ideal.div _) (Finset.sum_congr rfl fun k _ => ?_)
  have e2 : idx_main_v32 (ix1 r) k = ix2 r k :=
    funext fun a => Fin.ext (by match a with | ⟨0, _⟩ => rfl | ⟨1, _⟩ => rfl)
  rw [e2, expo_apply x0 x1 x2 x3 x4 x5 n c r hr k]

/-- The weight lowered by the threshold and cut at zero. -/
private theorem shrunk_apply (n : Fin 32) (c : Fin 512) (r : Fin 16384) (hr : r.val = n.val * 512 + c.val) (j : Fin 512) :
    val_main_v38 (F := Ideal) x0 x1 x2 x3 x4 x5 (ix2 r j)
      = shrunk (bankOf (val_main_v22 (F := Ideal) x1 x2 x3 x4 x5)) (rowOf x0 n c) j := by
  rw [val_main_v38_apply, val_main_v37_apply, val_main_v36_apply, val_main_cst_4_apply, val_main_call4_v0_apply,
    val_main_call4_cst_apply, soft_apply x0 x1 x2 x3 x4 x5 n c r hr j]
  simp only [Ideal.maximumf_def, Ideal.subf_def, Ideal.ofBits_def, Ideal.ofBits_zero_f32]
  rfl

/-- The reference's weight `j` of flattened row `r = 512 n + c`. -/
theorem att_apply (n : Fin 32) (c : Fin 512) (r : Fin 16384) (hr : r.val = n.val * 512 + c.val) (j : Fin 512) :
    val_main_v44 (F := Ideal) x0 x1 x2 x3 x4 x5 (ix2 r j)
      = att (bankOf (val_main_v22 (F := Ideal) x1 x2 x3 x4 x5)) (rowOf x0 n c) j := by
  have e1 : idx_main_v40 (idx_main_v43 (ix2 r j)) = ix1 r :=
    funext fun a => Fin.ext (by match a with | ⟨0, _⟩ => rfl)
  have hsum : ∑ k : Fin 512, val_main_v38 (F := Ideal) x0 x1 x2 x3 x4 x5 (idx_main_v39 (ix1 r) k)
      = ∑ j' : Fin 512, shrunk (bankOf (val_main_v22 (F := Ideal) x1 x2 x3 x4 x5)) (rowOf x0 n c) j' :=
    Finset.sum_congr rfl fun k _ => by
      have e2 : idx_main_v39 (ix1 r) k = ix2 r k :=
        funext fun a => Fin.ext (by match a with | ⟨0, _⟩ => rfl | ⟨1, _⟩ => rfl)
      rw [e2, shrunk_apply x0 x1 x2 x3 x4 x5 n c r hr k]
  rw [val_main_v44_apply, val_main_v43_apply, val_main_v42_apply, val_main_v40_apply, e1, val_main_v39_apply,
    val_main_cst_5_apply, val_main_v41_apply, val_main_cst_6_apply, shrunk_apply x0 x1 x2 x3 x4 x5 n c r hr j, hsum]
  simp only [Ideal.hostDivf_def, Ideal.maximumf_def, Ideal.ofBits_def, Ideal.ofBits_zero_f32, zero_add]
  rfl

end Cert.ReferenceIdeal.RefValue

end
-- ==== Proof.RefValue.lean ====
/-
  The reference's four computed results are the addressing step of the input's rows against the reference's bank.

  The reference flattens the input to `[16384, 1024]`, row `r` being input row `(r / 512, r % 512)`; it normalises
  each row, multiplies against the transposed bank, takes the softmax along the bank axis (its largest entry taken
  once more against `-∞`, which changes nothing), shrinks, renormalises; the read-out is reshaped to
  `[32, 512, 32, 32]`, and the weights, reshaped to `[32, 512, 512]`, are summed over the channel axis, divided by 512
  and repeated over the two trailing axes.
-/
import proofs.«138025_j73375221285179_1_alg».proof.Proof.Gen.ReferenceIdeal.Read
import proofs.«138025_j73375221285179_1_alg».proof.Proof.Spec
import proofs.«138025_j73375221285179_1_alg».proof.Proof.RefWeights
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.ReferenceIdeal.RefValue

open Cert.ReferenceIdeal Cert.ReferenceIdeal.Read Cert.Addressing Idealize.ShloMosaic Idealize.ShloMosaic.ValueIdx

variable (x0 : (⟨S32x512x32x32, .f32⟩ : BufTy).Contents (Elt Ideal)) (x1 x2 : (⟨S512x1024, .f32⟩ : BufTy).Contents (Elt Ideal))
  (x3 : (⟨S512, .f32⟩ : BufTy).Contents (Elt Ideal)) (x4 : (⟨S1024x512, .f32⟩ : BufTy).Contents (Elt Ideal))
  (x5 : (⟨S1024, .f32⟩ : BufTy).Contents (Elt Ideal))

/-- The flattened input. -/
theorem flat_eq : val_main_v0 (F := Ideal) x0 = outFlat x0 := by
  funext i
  refine (congrArg (val_main_v0 (F := Ideal) x0) (eq_ix2 i)).trans ?_
  exact flat_apply x0 ⟨(i 0).val / 512, by have h0 : (i 0).val < 16384 := (i 0).isLt; omega⟩
    ⟨(i 0).val % 512, Nat.mod_lt _ (by decide)⟩ (i 0)
    (by show (i 0).val = (i 0).val / 512 * 512 + (i 0).val % 512; omega) (i 1)

/-- The weights. -/
theorem att_eq : val_main_v44 (F := Ideal) x0 x1 x2 x3 x4 x5 = outAtt (val_main_v22 (F := Ideal) x1 x2 x3 x4 x5) x0 := by
  funext i
  refine (congrArg (val_main_v44 (F := Ideal) x0 x1 x2 x3 x4 x5) (eq_ix2 i)).trans ?_
  exact att_apply x0 x1 x2 x3 x4 x5 ⟨(i 0).val / 512, by have h0 : (i 0).val < 16384 := (i 0).isLt; omega⟩
    ⟨(i 0).val % 512, Nat.mod_lt _ (by decide)⟩ (i 0)
    (by show (i 0).val = (i 0).val / 512 * 512 + (i 0).val % 512; omega) (i 1)

/-- Entry `(n, c, h, w)` of the reshaped product is entry `(512 n + c, 32 h + w)` of the product, the sum over the
    bank's rows `j` of weight `j` of row `(n, c)` times the bank's entry `(j, 32 h + w)`. -/
theorem readout_apply (n : Fin 32) (c : Fin 512) (h w : Fin 32) :
    val_main_v46 (F := Ideal) x0 x1 x2 x3 x4 x5 (ix4 n c h w)
      = readout (bankOf (val_main_v22 (F := Ideal) x1 x2 x3 x4 x5)) (rowOf x0 n c)
          ⟨h.val * 32 + w.val, by have hh : h.val < 32 := h.isLt; have hw : w.val < 32 := w.isLt; omega⟩ := by
  have hn : n.val < 32 := n.isLt
  have hc : c.val < 512 := c.isLt
  have hh : h.val < 32 := h.isLt
  have hw : w.val < 32 := w.isLt
  rw [val_main_v46_apply, val_main_v45_apply]
  unfold readout
  refine Finset.sum_congr rfl fun j _ => ?_
  have el : lidx_main_v45 (idx_main_v46 (ix4 n c h w)) j
      = ix2 (⟨n.val * 512 + c.val, by omega⟩ : Fin 16384) j :=
    funext fun a => Fin.ext (by
      match a with
      | ⟨0, _⟩ => show (((n.val * 512 + c.val) * 32 + h.val) * 32 + w.val) / 1024 = n.val * 512 + c.val; omega
      | ⟨1, _⟩ => rfl)
  have er : ridx_main_v45 (idx_main_v46 (ix4 n c h w)) j
      = ix2 j (⟨h.val * 32 + w.val, by omega⟩ : Fin 1024) :=
    funext fun a => Fin.ext (by
      match a with
      | ⟨0, _⟩ => rfl
      | ⟨1, _⟩ => show (((n.val * 512 + c.val) * 32 + h.val) * 32 + w.val) % 1024 = h.val * 32 + w.val; omega)
  rw [el, er, att_apply x0 x1 x2 x3 x4 x5 n c ⟨n.val * 512 + c.val, by omega⟩ rfl j]
  rfl

/-- The read-out, reshaped. -/
theorem readout_eq : val_main_v46 (F := Ideal) x0 x1 x2 x3 x4 x5 = outReadout (val_main_v22 (F := Ideal) x1 x2 x3 x4 x5) x0 := by
  funext i
  refine (congrArg (val_main_v46 (F := Ideal) x0 x1 x2 x3 x4 x5) (eq_ix4 i)).trans ?_
  exact readout_apply x0 x1 x2 x3 x4 x5 (i 0) (i 1) (i 2) (i 3)

/-- Entry `(n, c, j)` of the weights reshaped to `[32, 512, 512]` is weight `j` of row `(n, c)`. -/
theorem att3_apply (n : Fin 32) (c : Fin 512) (j : Fin 512) :
    val_main_v47 (F := Ideal) x0 x1 x2 x3 x4 x5 (ix3 n c j)
      = att (bankOf (val_main_v22 (F := Ideal) x1 x2 x3 x4 x5)) (rowOf x0 n c) j := by
  have hn : n.val < 32 := n.isLt
  have hc : c.val < 512 := c.isLt
  have hj : j.val < 512 := j.isLt
  rw [val_main_v47_apply]
  have e : idx_main_v47 (ix3 n c j) = ix2 (⟨n.val * 512 + c.val, by omega⟩ : Fin 16384) j :=
    funext fun a => Fin.ext (by
      match a with
      | ⟨0, _⟩ => show ((n.val * 512 + c.val) * 512 + j.val) / 512 = n.val * 512 + c.val; omega
      | ⟨1, _⟩ => show ((n.val * 512 + c.val) * 512 + j.val) % 512 = j.val; omega)
  rw [e]
  exact att_apply x0 x1 x2 x3 x4 x5 n c ⟨n.val * 512 + c.val, by omega⟩ rfl j

/-- Entry `(n, j)` of the quotient: the sum over the channels `c` of weight `j` of row `(n, c)`, started at zero,
    divided by 512; dividing the sum by 512 is summing the weights each multiplied by `1/512`. -/
theorem avg_apply (n : Fin 32) (j : Fin 512) :
    val_main_v50 (F := Ideal) x0 x1 x2 x3 x4 x5 (ix2 n j)
      = chanAvg (bankOf (val_main_v22 (F := Ideal) x1 x2 x3 x4 x5)) (rowOf x0 n) j := by
  rw [val_main_v50_apply, val_main_v48_apply, val_main_v49_apply]
  simp only [val_main_cst_7_apply, val_main_cst_8_apply, Ideal.hostDivf_def, Ideal.ofBits_def,
    Ideal.ofBits_zero_f32, zero_add]
  refine (congrArg (fun s => Ideal.div s (Ideal.ofBits .f32 0x44000000#32))
    (Finset.sum_congr rfl fun c _ => ?_)).trans
    (div512_eq_chanAvg (bankOf (val_main_v22 (F := Ideal) x1 x2 x3 x4 x5)) (rowOf x0 n) j)
  have e : idx_main_v48 (ix2 n j) c = ix3 n c j :=
    funext fun a => Fin.ext (by match a with | ⟨0, _⟩ => rfl | ⟨1, _⟩ => rfl | ⟨2, _⟩ => rfl)
  rw [e]
  exact att3_apply x0 x1 x2 x3 x4 x5 n c j

/-- The channel average, repeated over the trailing axes. -/
theorem avg_eq : val_main_v52 (F := Ideal) x0 x1 x2 x3 x4 x5 = outAvg (val_main_v22 (F := Ideal) x1 x2 x3 x4 x5) x0 := by
  funext i
  rw [val_main_v52_apply, val_main_v51_apply]
  have e : idx_main_v51 (idx_main_v52 i) = ix2 (i 0) (i 1) :=
    funext fun a => Fin.ext (by match a with | ⟨0, _⟩ => rfl | ⟨1, _⟩ => rfl)
  rw [e]
  exact avg_apply x0 x1 x2 x3 x4 x5 (i 0) (i 1)

end Cert.ReferenceIdeal.RefValue

end
-- ==== Proof.Claims.lean ====
/-
  The five claims.

  The two kernel programs' frames are the generated ones; the reference's frame is its generated run with the results
  dropped; the idealization rewrote nothing. For the value claim both idealized programs end with the same five
  arrays: the read-out, the channel average, the flattened input, the bank and the weights, each one function of the
  launch input and of the bank. The bank itself is computed by the same host operations in both programs, so it is
  one term of the arguments; the kernel computes the other four block by block and the reference row by row, and both
  are the addressing step of the input's rows against that bank. The one law between the two sides is that dividing a
  sum by 512 is summing its terms each multiplied by 1/512, true of every extended real.
-/
import proofs.«138025_j73375221285179_1_alg».proof.Defs
import proofs.«138025_j73375221285179_1_alg».proof.Proof.Gen.Kernel.Frame
import proofs.«138025_j73375221285179_1_alg».proof.Proof.Gen.KernelIdeal.Frame
import proofs.«138025_j73375221285179_1_alg».proof.Proof.Gen.ReferenceIdeal.Run
import proofs.«138025_j73375221285179_1_alg».proof.Proof.Gen.ReferenceIdeal.Read
import proofs.«138025_j73375221285179_1_alg».proof.Proof.Gen.Pre_finite_inputs
import proofs.«138025_j73375221285179_1_alg».proof.Proof.KernelRun
import proofs.«138025_j73375221285179_1_alg».proof.Proof.RefValue
import Idealize.ShloMosaic.Lib.StableHlo.Run

noncomputable section

namespace Cert.Proof.Claims

open Idealize.ShloMosaic Idealize.ShloMosaic.TcCoe Idealize.SL.Sem Idealize.ShloMosaic.StableHlo Cert.Addressing

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- The idealization rewrote no operation. -/
theorem preserves : Cert.preserves_Kernel_KernelIdeal := trivial

open Cert.KernelIdeal Cert.KernelIdeal.Gen in
set_option maxHeartbeats 2000000 in
/-- The bank: both programs compute it by the same host operations of the same arguments. -/
theorem bank_eq (m : (ℓ : Loc Cert.KernelIdeal.nD Cert.KernelIdeal.τ Cert.KernelIdeal.sig) → Buf (Elt Ideal) ℓ) (c : Dev Cert.KernelIdeal.nD) :
    (V m c main_v17 : Cert.KernelIdeal.S512x1024.Idx → EReal)
      = Cert.ReferenceIdeal.Read.val_main_v22 (F := Ideal) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  rfl

/-- Both idealized programs end with the same five arrays. -/
theorem algebraic : Cert.algebraic_KernelIdeal_ReferenceIdeal := by
  intro m ρ m' ρ' _ hagree
  refine ⟨fun c => outReadout (Cert.KernelIdeal.Gen.V m c Cert.KernelIdeal.main_v17) (m ((c.tc : Thread Cert.KernelIdeal.nD Cert.KernelIdeal.τ).loc Cert.KernelIdeal.main_arg0)),
    fun c => outAvg (Cert.KernelIdeal.Gen.V m c Cert.KernelIdeal.main_v17) (m ((c.tc : Thread Cert.KernelIdeal.nD Cert.KernelIdeal.τ).loc Cert.KernelIdeal.main_arg0)),
    fun c => outFlat (m ((c.tc : Thread Cert.KernelIdeal.nD Cert.KernelIdeal.τ).loc Cert.KernelIdeal.main_arg0)),
    fun c => Cert.KernelIdeal.Gen.V m c Cert.KernelIdeal.main_v17,
    fun c => outAtt (Cert.KernelIdeal.Gen.V m c Cert.KernelIdeal.main_v17) (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun r h c => ?_) (Cert.ReferenceIdeal.Value.run (F := Ideal) m' ρ')
  obtain ⟨h0, h1, h2, h3, h4, hargs⟩ := h c
  obtain ⟨a0, a1, a2, a3, a4, a5⟩ := hagree c
  refine ⟨?_, ?_, ?_, ?_, ?_, hargs⟩
  · refine h0.trans ((Cert.ReferenceIdeal.Read.val_main_v46_eq m' c).trans ((Cert.ReferenceIdeal.RefValue.readout_eq _ _ _ _ _ _).trans ?_))
    rw [a0, a1, a2, a3, a4, a5, ← bank_eq m c]
  · refine h1.trans ((Cert.ReferenceIdeal.Read.val_main_v52_eq m' c).trans ((Cert.ReferenceIdeal.RefValue.avg_eq _ _ _ _ _ _).trans ?_))
    rw [a0, a1, a2, a3, a4, a5, ← bank_eq m c]
  · refine h2.trans ((Cert.ReferenceIdeal.Read.val_main_v0_eq _).trans ((Cert.ReferenceIdeal.RefValue.flat_eq _).trans ?_))
    rw [a0]
  · refine h3.trans ((Cert.ReferenceIdeal.Read.val_main_v22_eq _ _ _ _ _).trans ?_)
    rw [a1, a2, a3, a4, a5, ← bank_eq m c]
  · refine h4.trans ((Cert.ReferenceIdeal.Read.val_main_v44_eq m' c).trans ((Cert.ReferenceIdeal.RefValue.att_eq _ _ _ _ _ _).trans ?_))
    rw [a0, a1, a2, a3, a4, a5, ← bank_eq m c]

end Cert.Proof.Claims

end
-- ==== Proof.lean ====
/- The proof of `Cert.Claim`: the kernel program, its idealization and the reference each run to the end with their
   arguments unchanged; the idealization rewrote nothing; and the idealized kernel and the idealized reference end
   with equal results on the extended reals.

   The program normalises each of the 16384 rows of the input, takes its inner products with the 512 rows of a
   normalised memory bank, turns them into softmax weights, lowers each weight by a threshold, cuts it at zero and
   renormalises; it returns the weights' combination of the bank's rows, the channel average of the weights, the
   flattened input, the bank and the weights. Proof/Spec.lean states this as functions on the extended reals,
   Proof/KernelWeights.lean, Proof/KernelRow.lean, Proof/KernelBlocks.lean and Proof/KernelRun.lean read the kernel
   program's results as those functions (the body's values at an entry, the 32 blocks tiling each array, the reshapes
   around the region), Proof/RefWeights.lean and Proof/RefValue.lean read the reference's, and Proof/Claims.lean sets
   the two runs side by side. The bank is one term of the arguments in both programs. The only law between the two
   sides is that a sum divided by 512 is the sum of its terms each multiplied by 1/512, which holds for every extended
   real because a non-negative real factor distributes over a sum. -/
import proofs.«138025_j73375221285179_1_alg».proof.Defs
import proofs.«138025_j73375221285179_1_alg».proof.Proof.Gen.Kernel
import proofs.«138025_j73375221285179_1_alg».proof.Proof.Gen.Kernel.Skeleton
import proofs.«138025_j73375221285179_1_alg».proof.Proof.Gen.Kernel.Launch
import proofs.«138025_j73375221285179_1_alg».proof.Proof.Gen.Kernel.Points
import proofs.«138025_j73375221285179_1_alg».proof.Proof.Gen.Kernel.Frame
import proofs.«138025_j73375221285179_1_alg».proof.Proof.Gen.KernelIdeal
import proofs.«138025_j73375221285179_1_alg».proof.Proof.Gen.KernelIdeal.Skeleton
import proofs.«138025_j73375221285179_1_alg».proof.Proof.Gen.KernelIdeal.Launch
import proofs.«138025_j73375221285179_1_alg».proof.Proof.Gen.KernelIdeal.Points
import proofs.«138025_j73375221285179_1_alg».proof.Proof.Gen.KernelIdeal.Frame
import proofs.«138025_j73375221285179_1_alg».proof.Proof.Gen.ReferenceIdeal
import proofs.«138025_j73375221285179_1_alg».proof.Proof.Gen.Pre_finite_inputs
import proofs.«138025_j73375221285179_1_alg».proof.Proof.Gen.ReferenceIdeal.Run
import proofs.«138025_j73375221285179_1_alg».proof.Proof.Gen.ReferenceIdeal.Read
import proofs.«138025_j73375221285179_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
